-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x2048 : Shape := ⟨3, ![2, 2048, 2048]⟩
abbrev S8192x2048 : Shape := ⟨2, ![8192, 2048]⟩
abbrev S2048x8192 : Shape := ⟨2, ![2048, 8192]⟩
abbrev S_ : Shape := ⟨0, ![]⟩

class Facts : Prop where
  bcast_S_S2x2048x2048 : S_.BroadcastsInDim S2x2048x2048 (![] : Fin 0 → Fin S2x2048x2048.rank)
  reducesTo_S2x2048x2048_S_d0_1_2 : S2x2048x2048.ReducesTo [0, 1, 2] S_
  h_S_ : 0 < S_.numel
  bcast_S_S8192x2048 : S_.BroadcastsInDim S8192x2048 (![] : Fin 0 → Fin S8192x2048.rank)
  reducesTo_S8192x2048_S_d0_1 : S8192x2048.ReducesTo [0, 1] S_
  bcast_S_S2048x8192 : S_.BroadcastsInDim S2048x8192 (![] : Fin 0 → Fin S2048x8192.rank)
  reducesTo_S2048x8192_S_d0_1 : S2048x8192.ReducesTo [0, 1] S_

variable [Facts]

def fn_part1 {F : FTy → Type} [FloatOps F] (main_v13 : IVec S_ 1) (main_v16 : IVec S2048x8192 1) : IVec S_ 1 :=
  let main_c_5 : IVec S_ 1 := constantI S_ 1 1#1
  let main_v17 : IVec S_ 1 := (fun x v => Host.reduce IntOp.andi x v reducesTo_S2048x8192_S_d0_1 h_S_) main_v16 main_c_5
  let main_v18 : IVec S_ 1 := andi main_v13 main_v17
  main_v18

def fn {F : FTy → Type} [FloatOps F] (main_arg0 : FVec F S2x2048x2048 .f32) (main_arg1 : FVec F S8192x2048 .f32) (main_arg2 : FVec F S8192x2048 .f32) (main_arg3 : FVec F S2048x8192 .f32) : IVec S_ 1 :=
  let main_v0 : FVec F S2x2048x2048 .f32 := Host.absf main_arg0
  let main_cst : FVec F S_ .f32 := constant S_ .f32 0x7F800000#32
  let main_v1 : FVec F S2x2048x2048 .f32 := broadcastInDim S2x2048x2048 ![] bcast_S_S2x2048x2048 main_cst
  let main_v2 : IVec S2x2048x2048 1 := cmpf .olt main_v0 main_v1
  let main_c : IVec S_ 1 := constantI S_ 1 1#1
  let main_v3 : IVec S_ 1 := (fun x v => Host.reduce IntOp.andi x v reducesTo_S2x2048x2048_S_d0_1_2 h_S_) main_v2 main_c
  let main_v4 : FVec F S8192x2048 .f32 := Host.absf main_arg1
  let main_cst_0 : FVec F S_ .f32 := constant S_ .f32 0x7F800000#32
  let main_v5 : FVec F S8192x2048 .f32 := broadcastInDim S8192x2048 ![] bcast_S_S8192x2048 main_cst_0
  let main_v6 : IVec S8192x2048 1 := cmpf .olt main_v4 main_v5
  let main_c_1 : IVec S_ 1 := constantI S_ 1 1#1
  let main_v7 : IVec S_ 1 := (fun x v => Host.reduce IntOp.andi x v reducesTo_S8192x2048_S_d0_1 h_S_) main_v6 main_c_1
  let main_v8 : IVec S_ 1 := andi main_v3 main_v7
  let main_v9 : FVec F S8192x2048 .f32 := Host.absf main_arg2
  let main_cst_2 : FVec F S_ .f32 := constant S_ .f32 0x7F800000#32
  let main_v10 : FVec F S8192x2048 .f32 := broadcastInDim S8192x2048 ![] bcast_S_S8192x2048 main_cst_2
  let main_v11 : IVec S8192x2048 1 := cmpf .olt main_v9 main_v10
  let main_c_3 : IVec S_ 1 := constantI S_ 1 1#1
  let main_v12 : IVec S_ 1 := (fun x v => Host.reduce IntOp.andi x v reducesTo_S8192x2048_S_d0_1 h_S_) main_v11 main_c_3
  let main_v13 : IVec S_ 1 := andi main_v8 main_v12
  let main_v14 : FVec F S2048x8192 .f32 := Host.absf main_arg3
  let main_cst_4 : FVec F S_ .f32 := constant S_ .f32 0x7F800000#32
  let main_v15 : FVec F S2048x8192 .f32 := broadcastInDim S2048x8192 ![] bcast_S_S2048x8192 main_cst_4
  let main_v16 : IVec S2048x8192 1 := cmpf .olt main_v14 main_v15
  fn_part1 (F := F) main_v13 main_v16
-- ==== Kernel.lean ====
abbrev S2x2048x2048 : Shape := ⟨3, ![2, 2048, 2048]⟩
abbrev S8192x2048 : Shape := ⟨2, ![8192, 2048]⟩
abbrev S2048x8192 : Shape := ⟨2, ![2048, 8192]⟩
abbrev S4096x2048 : Shape := ⟨2, ![4096, 2048]⟩
abbrev S4096x8192 : Shape := ⟨2, ![4096, 8192]⟩
abbrev S512x2048 : Shape := ⟨2, ![512, 2048]⟩
abbrev S256x2048 : Shape := ⟨2, ![256, 2048]⟩
abbrev S512x256 : Shape := ⟨2, ![512, 256]⟩
abbrev S512x1024 : Shape := ⟨2, ![512, 1024]⟩
abbrev S1024x1024 : Shape := ⟨2, ![1024, 1024]⟩

abbrev nBuf : Space → Nat
  | .hbm => 8
  | .vmem => 15
  | .smem => 0
  | _ => 0

abbrev bufTy : (tb : Table) → Fin (tcTables nBuf tb) → BufTy
  | .hbm, ⟨0, _⟩ => ⟨S2x2048x2048, .f32⟩
  | .hbm, ⟨1, _⟩ => ⟨S8192x2048, .f32⟩
  | .hbm, ⟨2, _⟩ => ⟨S8192x2048, .f32⟩
  | .hbm, ⟨3, _⟩ => ⟨S2048x8192, .f32⟩
  | .hbm, ⟨4, _⟩ => ⟨S4096x2048, .f32⟩
  | .hbm, ⟨5, _⟩ => ⟨S4096x8192, .bf16⟩
  | .hbm, ⟨6, _⟩ => ⟨S4096x2048, .f32⟩
  | .hbm, ⟨7, _⟩ => ⟨S2x2048x2048, .f32⟩
  | .local _ .vmem, ⟨0, _⟩ => ⟨S512x2048, .f32⟩
  | .local _ .vmem, ⟨1, _⟩ => ⟨S512x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S512x256, .bf16⟩
  | .local _ .vmem, ⟨7, _⟩ => ⟨S512x256, .bf16⟩
  | .local _ .vmem, ⟨8, _⟩ => ⟨S512x1024, .bf16⟩
  | .local _ .vmem, ⟨9, _⟩ => ⟨S512x1024, .bf16⟩
  | .local _ .vmem, ⟨10, _⟩ => ⟨S1024x1024, .f32⟩
  | .local _ .vmem, ⟨11, _⟩ => ⟨S1024x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | _, _ => ⟨S2x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13

abbrev nD : Nat := 1
abbrev τ : Topo := Topo.v7x

variable {F : FTy → Type} [FloatOps F]

abbrev grid0 : Pipeline.Grid := ⟨2, ![8, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨3, ![8, 2, 8], ![false, false, false]⟩

def k1_cond2 (i : grid1.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S512x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1024x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S512x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

class Facts₀ : Prop where
  shapeCasts_S2x2048x2048_S4096x2048 : S2x2048x2048.ShapeCasts S4096x2048
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  bitsLt_bf16_f32 : FTy.bits .bf16 < FTy.bits .f32
  inb_S256x2048_S256x2048_0_0 : ∀ a, (![0, 0] : Fin 2 → Nat) a + S256x2048.size a ≤ S256x2048.size a
  h_S256x2048 : 0 < S256x2048.numel
  inb_S512x256_S512x256_0_0 : ∀ a, (![0, 0] : Fin 2 → Nat) a + S512x256.size a ≤ S512x256.size a
  h_S512x256 : 0 < S512x256.numel
  packedbf16_S512x256_S512x256_0_0 : (Rect.unit (s := S512x256) ![0, 0] S512x256.size inb_S512x256_S512x256_0_0).PackedRows (EltTy.packing .bf16)
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x1024_S1024x1024_0_0 : ∀ a, (![0, 0] : Fin 2 → Nat) a + S1024x1024.size a ≤ S1024x1024.size a
  h_S1024x1024 : 0 < S1024x1024.numel
  shapeCasts_S4096x2048_S2x2048x2048 : S4096x2048.ShapeCasts S2x2048x2048
  dot_S512x2048_S256x2048_S512x256_1_1_0_0_n_n_wf : DotDims.WF S512x2048 S256x2048 S512x256 [1] [1] [0] [0] [] []
  dot_S512x1024_S1024x1024_S512x1024_1_1_0_0_n_n_wf : DotDims.WF S512x1024 S1024x1024 S512x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S4096x2048.size a
  hwx0_0 : ∀ i : grid0.Coords, EltTy.bits .f32 = 32 ∨ (Rect.block (s := S4096x2048) S512x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x2048.size a ≤ S8192x2048.size a
  hwx0_1 : ∀ i : grid0.Coords, EltTy.bits .f32 = 32 ∨ (Rect.block (s := S8192x2048) S256x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x2048.size a ≤ S8192x2048.size a
  hwx0_2 : ∀ i : grid0.Coords, EltTy.bits .f32 = 32 ∨ (Rect.block (s := S8192x2048) S256x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x256.size a ≤ S4096x8192.size a
  hwx0_3 : ∀ i : grid0.Coords, EltTy.bits .bf16 = 32 ∨ (Rect.block (s := S4096x8192) S512x256.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x1024.size a ≤ S4096x8192.size a
  hwx1_0 : ∀ i : grid1.Coords, EltTy.bits .bf16 = 32 ∨ (Rect.block (s := S4096x8192) S512x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S2048x8192.size a
  hwx1_1 : ∀ i : grid1.Coords, EltTy.bits .f32 = 32 ∨ (Rect.block (s := S2048x8192) S1024x1024.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x1024.size a ≤ S4096x2048.size a
  hwx1_2 : ∀ i : grid1.Coords, EltTy.bits .f32 = 32 ∨ (Rect.block (s := S4096x2048) S512x1024.size (cc1_transform_2 i) (hinb1_2 i)).WholeWords (EltTy.packing .f32)

variable [Facts₀]

def dot_S512x2048_S256x2048_S512x256_1_1_0_0_n_n : DotDims S512x2048 S256x2048 S512x256 where
  lhsContracting := [1]
  rhsContracting := [1]
  lhsNonContracting := [0]
  rhsNonContracting := [0]
  lhsBatch := []
  rhsBatch := []
  wf := dot_S512x2048_S256x2048_S512x256_1_1_0_0_n_n_wf
def dot_S512x1024_S1024x1024_S512x1024_1_1_0_0_n_n : DotDims S512x1024 S1024x1024 S512x1024 where
  lhsContracting := [1]
  rhsContracting := [1]
  lhsNonContracting := [0]
  rhsNonContracting := [0]
  lhsBatch := []
  rhsBatch := []
  wf := dot_S512x1024_S1024x1024_S512x1024_1_1_0_0_n_n_wf

abbrev win0_0 : Pipeline.Window sig grid0 :=
  Pipeline.Window.ofSpec (Memref.whole main_v0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S512x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v1) S512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S1024x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S512x1024.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

class Facts : Prop extends Facts₀ where

variable [Facts]
-- ==== ReferenceIdeal.lean ====
abbrev S2x2048x2048 : Shape := ⟨3, ![2, 2048, 2048]⟩
abbrev S8192x2048 : Shape := ⟨2, ![8192, 2048]⟩
abbrev S2048x8192 : Shape := ⟨2, ![2048, 8192]⟩
abbrev S2x2048x8192 : Shape := ⟨3, ![2, 2048, 8192]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S2x2048x2048, .f32⟩
  | .hbm, ⟨1, _⟩ => ⟨S8192x2048, .f32⟩
  | .hbm, ⟨2, _⟩ => ⟨S8192x2048, .f32⟩
  | .hbm, ⟨3, _⟩ => ⟨S2048x8192, .f32⟩
  | .hbm, ⟨4, _⟩ => ⟨S2x2048x8192, .f32⟩
  | .hbm, ⟨5, _⟩ => ⟨S2x2048x8192, .f32⟩
  | .hbm, ⟨6, _⟩ => ⟨S2x2048x8192, .f32⟩
  | .hbm, ⟨7, _⟩ => ⟨S2x2048x8192, .f32⟩
  | .hbm, ⟨8, _⟩ => ⟨S_, .f32⟩
  | .hbm, ⟨9, _⟩ => ⟨S2x2048x8192, .f32⟩
  | .hbm, ⟨10, _⟩ => ⟨S2x2048x8192, .f32⟩
  | .hbm, ⟨11, _⟩ => ⟨S_, .f32⟩
  | .hbm, ⟨12, _⟩ => ⟨S2x2048x8192, .f32⟩
  | .hbm, ⟨13, _⟩ => ⟨S2x2048x8192, .f32⟩
  | .hbm, ⟨14, _⟩ => ⟨S2x2048x8192, .f32⟩
  | .hbm, ⟨15, _⟩ => ⟨S2x2048x8192, .f32⟩
  | .hbm, ⟨16, _⟩ => ⟨S2x2048x2048, .f32⟩
  | _, _ => ⟨S2x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩

abbrev nD : Nat := 1
abbrev τ : Topo := Topo.v7x

variable {F : FTy → Type} [FloatOps F]

class Facts₀ : Prop where
  bcast_S_S2x2048x8192 : S_.BroadcastsInDim S2x2048x8192 (![] : Fin 0 → Fin S2x2048x8192.rank)
  dot_S2x2048x2048_S8192x2048_S2x2048x8192_2_1_01_0_n_n_wf : DotDims.WF S2x2048x2048 S8192x2048 S2x2048x8192 [2] [1] [0, 1] [0] [] []
  dot_S2x2048x8192_S2048x8192_S2x2048x2048_2_1_01_0_n_n_wf : DotDims.WF S2x2048x8192 S2048x8192 S2x2048x2048 [2] [1] [0, 1] [0] [] []

variable [Facts₀]

def dot_S2x2048x2048_S8192x2048_S2x2048x8192_2_1_01_0_n_n : DotDims S2x2048x2048 S8192x2048 S2x2048x8192 where
  lhsContracting := [2]
  rhsContracting := [1]
  lhsNonContracting := [0, 1]
  rhsNonContracting := [0]
  lhsBatch := []
  rhsBatch := []
  wf := dot_S2x2048x2048_S8192x2048_S2x2048x8192_2_1_01_0_n_n_wf
def dot_S2x2048x8192_S2048x8192_S2x2048x2048_2_1_01_0_n_n : DotDims S2x2048x8192 S2048x8192 S2x2048x2048 where
  lhsContracting := [2]
  rhsContracting := [1]
  lhsNonContracting := [0, 1]
  rhsNonContracting := [0]
  lhsBatch := []
  rhsBatch := []
  wf := dot_S2x2048x8192_S2048x8192_S2x2048x2048_2_1_01_0_n_n_wf

class Facts : Prop extends Facts₀ where

variable [Facts]
-- ==== Proof.FrameBits.Shared.lean ====
/-
  What the two kernels' frame proofs share. The program runs two kernels one after the other: the first computes, block by
  block, h = silu(x · gᵀ) * (x · uᵀ) over a grid of 8 × 32 points; the second multiplies h by dᵀ, summing over the long
  axis in 8 slabs of 1024 columns kept in a scratch accumulator, over a grid of 8 × 2 × 8 points whose last coordinate
  is the slab. Here: each window's block at a grid point read off the array the kernel is entered with; that an input's
  staging buffer holds that block at every point; the second kernel's two branch conditions (first slab, last slab)
  decided over the grid; at which points its output window is idle and not written back; and the region invariant
  with the accumulator's buffer split out of the other scoped buffers.
-/
import proofs.«158109_j78786880078282_1_alg».proof.Proof.Gen.Kernel.Launch
import proofs.«158109_j78786880078282_1_alg».proof.Proof.Gen.Kernel.Skeleton
import proofs.«158109_j78786880078282_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Entry
variable (V : (c : Dev nD) → (b : Ref sig .tc) → Buf (Elt F) ((c : Thread nD τ).loc b))

/-! ## The first kernel's blocks -/

/-- Window `w`'s block at point `t` of the first kernel, read off its array as the kernel finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The 512 rows of x a point works on sit in its staging buffer at every point, fetched there or not (the row block
    only moves every 32 points). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- The same for the 256 rows of the gate weights. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- The same for the 256 rows of the up weights. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The second kernel's blocks -/

/-- Window `w`'s block at point `t` of the second kernel, read off its array as the kernel finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The 512 × 1024 block of h a point works on sits in its staging buffer at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- The same for the 1024 × 1024 block of the down weights. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

end Entry

/-! ## The second kernel's branch conditions -/

/-- "This is the first slab": the accumulator is zeroed here. -/
abbrev cond1_0 (i : grid1.Coords) : Prop := (Scalar.cmpi .ne (Scalar.extui (Scalar.cmpi .eq (BitVec.ofNat 32 (i 2).val) 0#32)) 0#32) = 1#1
/-- It holds at the points ≡ 0 (mod 8): the slab index is the grid's last coordinate. -/
theorem hcond1_0 : ∀ t : Fin cfg1.N, cond1_0 (grid1.coords t) ↔ t.val % 8 = 0 :=
  (by decide +kernel : ∀ t : Fin grid1.N, cond1_0 (grid1.coords t) ↔ t.val % 8 = 0)

/-- "This is the last slab": the accumulator is copied to the output block here. -/
abbrev cond1_1 (i : grid1.Coords) : Prop := k1_cond2 i = 1#1
/-- It holds at the points ≡ 7 (mod 8). -/
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the second kernel's windows are idle -/

theorem liveAt1_0 : ∀ t : Fin cfg1.N, cfg1.idle 0 (grid1.coords t) = false := by decide +kernel
theorem liveAt1_1 : ∀ t : Fin cfg1.N, cfg1.idle 1 (grid1.coords t) = false := by decide +kernel
/-- Away from the last slab the output window is idle, -/
theorem idleAt1_2 : ∀ t : Fin cfg1.N, ¬cond1_1 (grid1.coords t) → cfg1.idle 2 (grid1.coords t) = true := by decide +kernel
/-- and its block is not written back there; -/
theorem noFlush1_2 : ∀ t : Fin cfg1.N, ¬cond1_1 (grid1.coords t) → (cfg1.win 2).flush t = false := by decide +kernel
/-- at the last slab it is live. -/
theorem liveAt1_2 : ∀ t : Fin cfg1.N, cond1_1 (grid1.coords t) → cfg1.idle 2 (grid1.coords t) = false := by decide +kernel

/-! ## The second kernel's memrefs -/

/-- One staging buffer of the output window, through which its contents are stated. -/
abbrev VO1_2 : View sig .tc .vmem S512x1024 .f32 := (Memref.whole cc1_stg2_0 : Memref sig .tc .vmem S512x1024 .f32).view
abbrev ms1_0 (t : Fin cfg1.N) : Memref sig .tc .vmem S512x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1024 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S512x1024 .f32 := win1_2.stage (cfg1.slots t 2)
abbrev hs1_2 (t : Fin cfg1.N) : (ms1_2 t).IsWhole := hstage1_2 ((cfg1.slots t 2).cast nbuf1_2)
/-- The accumulator: a whole scoped buffer of the kernel's own, -/
abbrev scM1_0 : Memref sig .tc .vmem S512x1024 .f32 := Memref.whole cc1_scratch0
/-- and the view through which its contents are stated. -/
abbrev VS1_0 : View sig .tc .vmem S512x1024 .f32 := scM1_0.view

/-- A scoped buffer the second kernel never touches (a staging buffer of the first), whole at some contents. -/
abbrev other (c : Dev nD) (b : Ref sig .tc) : sProp 𝕄 :=
  iprop(∃ f : Buf (Elt F) ((c : Thread nD τ).loc b), ((c : Thread nD τ).loc b) ↦{fullShare} f)

/-- The invariant the region hands the second kernel: the first kernel's eight staging buffers at anything, the
    accumulator at anything, the generator register at some state. -/
theorem PhiA1_eq (c : Dev nD) :
    (Pipeline.ΦA spec1 c : sProp 𝕄)
      = iprop(iprop(other c cc0_stg0_0 ∗ other c cc0_stg0_1 ∗ other c cc0_stg1_0 ∗ other c cc0_stg1_1 ∗ other c cc0_stg2_0 ∗ other c cc0_stg2_1 ∗ other c cc0_stg3_0 ∗ other c cc0_stg3_1
          ∗ (∃ d, owns (c : Thread nD τ) scM1_0 fullShare d)) ∗ (∃ r, prngReg c r)) := by
  unfold Pipeline.ΦA; rw [scopedRest1_eq]; simp only [scM1_0, owns_whole]; try rfl

end Cert.Kernel.Hand

end
-- ==== Proof.FrameBits.Body0.lean ====
/-
  The first kernel's body. At a grid point it loads a 512 × 2048 block of x and 256 × 2048 blocks of the gate and up
  weights, and stores ONE 512 × 256 block: silu(x · gᵀ) * (x · uᵀ), the two products contracted over all 2048 columns.
  Here: what that store leaves in the output block's buffer as one piece over the three input blocks; the body's triple
  on whole buffers; the proof data of the pipeline (each input's buffer at its block, the output's at that piece,
  nothing carried from point to point); and the body obligation at every point.
-/
import proofs.«158109_j78786880078282_1_alg».proof.Proof.FrameBits.Shared

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev r0_x : Rect S512x2048 := Rect.unit (s := S512x2048) ![0, 0] S512x2048.size inb_S512x2048_S512x2048_0_0
abbrev r0_w : Rect S256x2048 := Rect.unit (s := S256x2048) ![0, 0] S256x2048.size inb_S256x2048_S256x2048_0_0
abbrev r0_o : Rect S512x256 := Rect.unit (s := S512x256) ![0, 0] S512x256.size inb_S512x256_S512x256_0_0

/-- The output block's buffer after the body, from the three input blocks: its one store, whole. -/
def out0_3 (x0 : Vec F S512x2048 .f32) (x1 x2 : Vec F S256x2048 .f32) : Vec F S512x256 .bf16 :=
  View.canon [⟨r0_o, k0_pay1 (View.ld x0 r0_x) (View.ld x1 r0_w) (View.ld x2 r0_w)⟩]

/-- The one store covers the block. -/
theorem cover0_3 (p0 : Vec F S512x256 .bf16) (y : S512x256.Idx) :
    ∃ pc ∈ ([⟨r0_o, p0⟩] : List (View.Piece (Elt F) S512x256 .bf16)), y ∈ pc.1.set :=
  View.cover_of_tiled [⟨r0_o, p0⟩] S512x256.size (by rfl) y

set_option maxHeartbeats 1000000 in
/-- The body on whole staging buffers, the inputs' at contents `x0 x1 x2` and the output's at anything, runs to its end
    with the inputs as they were and the output's buffer at `out0_3` of them. -/
theorem sound_kernel0 (c : Dev nD) (E : Set ℕ) (i : grid0.Coords) (arg2 : Memref sig .tc .vmem S512x2048 .f32) (harg2 : arg2.IsWhole) (arg3 : Memref sig .tc .vmem S256x2048 .f32) (harg3 : arg3.IsWhole) (arg4 : Memref sig .tc .vmem S256x2048 .f32) (harg4 : arg4.IsWhole) (arg5 : Memref sig .tc .vmem S512x256 .bf16) (harg5 : arg5.IsWhole)
    (x0 : Vec F S512x2048 .f32) (x1 x2 : Vec F S256x2048 .f32) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d)
        ∗ (iprop(owns (c : Thread nD τ) arg2 fullShare x0 ∗ owns (c : Thread nD τ) arg3 fullShare x1 ∗ owns (c : Thread nD τ) arg4 fullShare x2 ∗ owns (c : Thread nD τ) arg5 fullShare (out0_3 x0 x1 x2)) -∗ K ⟨⟩))
      ⊢ wp frame (wpE (defs₀ (F := F)) Variants.none c none) E (cc0__gate_up_kernel i arg2 harg2 arg3 harg3 arg4 harg4 arg5 harg5) K := by
  simp only [cc0__gate_up_kernel_eq_skeleton]; unfold cc0__gate_up_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

section Entry
variable (V : (c : Dev nD) → (b : Ref sig .tc) → Buf (Elt F) ((c : Thread nD τ).loc b))

/-- The first kernel's proof data on core `c`, entered with the arrays at `V`: after the body at point `t` each input's
    buffer holds its block and the output's `out0_3` of the three blocks; the invariant is the scoped rest and the
    generator register, untouched; nothing is owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' buffers hold their blocks, so `sound_kernel0` applies; the invariant and what
    the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Entry

end Cert.Kernel.Hand

end
-- ==== Proof.FrameBits.Runs1.lean ====
/-
  The second kernel's body, run once per control case. A point of its grid is in one of three cases by its slab index
  (the grid's last coordinate): the FIRST slab (the accumulator is zeroed, then the slab's partial product is added),
  a MIDDLE slab (the partial product is added to what the point before left), the LAST slab (the same, and the
  accumulator is then copied into the output block). For each case: the stores the body leaves in the accumulator
  (and, at the last slab, in the output block) as a list of pieces, last first, with the proof that the body, started
  on whole buffers, runs to its end leaving exactly those pieces written and its input blocks as they were.
-/
import proofs.«158109_j78786880078282_1_alg».proof.Proof.FrameBits.Shared

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- FIRST slab. The accumulator may hold anything on entry; the output block is handed back untouched. -/
noncomputable def kernelRun1_A (c : Dev nD) (i : grid1.Coords) (arg3 : Memref sig .tc .vmem S512x1024 .bf16) (harg3 : arg3.IsWhole) (arg4 : Memref sig .tc .vmem S1024x1024 .f32) (harg4 : arg4.IsWhole) (arg5 : Memref sig .tc .vmem S512x1024 .f32) (harg5 : arg5.IsWhole) (arg6 : Memref sig .tc .vmem S512x1024 .f32) (harg6 : arg6.IsWhole) (hc0 : cond1_0 i) (hc1 : ¬cond1_1 i)
    (x0 : Vec F S512x1024 .bf16) (x1 : Vec F S1024x1024 .f32) :
    Σ' (L2 : List (View.Piece (Elt F) S512x1024 .f32)), { LS0 : List (View.Piece (Elt F) S512x1024 .f32) //
      ∀ (xi2 : Vec F S512x1024 .f32) (E : Set ℕ) (K : PUnit → sProp 𝕄),
        iprop(owns (c : Thread nD τ) arg3 fullShare x0 ∗ owns (c : Thread nD τ) arg4 fullShare x1 ∗ owns (c : Thread nD τ) arg5 fullShare xi2 ∗ (∃ d, owns (c : Thread nD τ) arg6 fullShare d)
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0)) -∗ K ⟨⟩))
          ⊢ wp frame (wpE (defs₀ (F := F)) Variants.none c none) E (cc1__down_kernel i arg3 harg3 arg4 harg4 arg5 harg5 arg6 harg6) K } := by
  refine ⟨[], ?_, fun xi2 E K => ?run⟩
  case run =>
    simp only [cc1__down_kernel_eq_skeleton]; unfold cc1__down_kernel_skel
    unfold owns
    iintro ⟨⟨%f0, %hf0, H0⟩, ⟨%f1, %hf1, H1⟩, ⟨%f2, %hf2, H2⟩, ⟨%ds, %fs0, -, HS0⟩, Hk⟩
    obtain rfl := harg3.eq_unread hf0; obtain rfl := harg4.eq_unread hf1; obtain rfl := harg5.eq_unread hf2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

set_option maxHeartbeats 1000000 in
/-- MIDDLE slab. The accumulator holds what the point before left (`xs0`); the output block is handed back untouched. -/
noncomputable def kernelRun1_B (c : Dev nD) (i : grid1.Coords) (arg3 : Memref sig .tc .vmem S512x1024 .bf16) (harg3 : arg3.IsWhole) (arg4 : Memref sig .tc .vmem S1024x1024 .f32) (harg4 : arg4.IsWhole) (arg5 : Memref sig .tc .vmem S512x1024 .f32) (harg5 : arg5.IsWhole) (arg6 : Memref sig .tc .vmem S512x1024 .f32) (harg6 : arg6.IsWhole) (hc0 : ¬cond1_0 i) (hc1 : ¬cond1_1 i)
    (x0 : Vec F S512x1024 .bf16) (x1 : Vec F S1024x1024 .f32) (xs0 : Vec F S512x1024 .f32) :
    Σ' (L2 : List (View.Piece (Elt F) S512x1024 .f32)), { LS0 : List (View.Piece (Elt F) S512x1024 .f32) //
      ∀ (xi2 : Vec F S512x1024 .f32) (E : Set ℕ) (K : PUnit → sProp 𝕄),
        iprop(owns (c : Thread nD τ) arg3 fullShare x0 ∗ owns (c : Thread nD τ) arg4 fullShare x1 ∗ owns (c : Thread nD τ) arg5 fullShare xi2 ∗ owns (c : Thread nD τ) arg6 fullShare xs0
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0)) -∗ K ⟨⟩))
          ⊢ wp frame (wpE (defs₀ (F := F)) Variants.none c none) E (cc1__down_kernel i arg3 harg3 arg4 harg4 arg5 harg5 arg6 harg6) K } := by
  refine ⟨[], ?_, fun xi2 E K => ?run⟩
  case run =>
    simp only [cc1__down_kernel_eq_skeleton]; unfold cc1__down_kernel_skel
    unfold owns
    iintro ⟨⟨%f0, %hf0, H0⟩, ⟨%f1, %hf1, H1⟩, ⟨%f2, %hf2, H2⟩, ⟨%fs0, %hfs0, HS0⟩, Hk⟩
    obtain rfl := harg3.eq_unread hf0; obtain rfl := harg4.eq_unread hf1; obtain rfl := harg5.eq_unread hf2; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

set_option maxHeartbeats 1000000 in
/-- LAST slab. The accumulator holds what the point before left (`xs0`); the output block may hold anything and ends
    with the body's store written. -/
noncomputable def kernelRun1_C (c : Dev nD) (i : grid1.Coords) (arg3 : Memref sig .tc .vmem S512x1024 .bf16) (harg3 : arg3.IsWhole) (arg4 : Memref sig .tc .vmem S1024x1024 .f32) (harg4 : arg4.IsWhole) (arg5 : Memref sig .tc .vmem S512x1024 .f32) (harg5 : arg5.IsWhole) (arg6 : Memref sig .tc .vmem S512x1024 .f32) (harg6 : arg6.IsWhole) (hc0 : ¬cond1_0 i) (hc1 : cond1_1 i)
    (x0 : Vec F S512x1024 .bf16) (x1 : Vec F S1024x1024 .f32) (xs0 : Vec F S512x1024 .f32) :
    Σ' (L2 : List (View.Piece (Elt F) S512x1024 .f32)), { LS0 : List (View.Piece (Elt F) S512x1024 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ owns (c : Thread nD τ) arg6 fullShare xs0
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f LS0)) -∗ K ⟨⟩))
          ⊢ wp frame (wpE (defs₀ (F := F)) Variants.none c none) E (cc1__down_kernel i arg3 harg3 arg4 harg4 arg5 harg5 arg6 harg6) K } := by
  refine ⟨?_, ?_, fun E K => ?run⟩
  case run =>
    simp only [cc1__down_kernel_eq_skeleton]; unfold cc1__down_kernel_skel
    unfold owns
    iintro ⟨⟨%f0, %hf0, H0⟩, ⟨%f1, %hf1, H1⟩, ⟨%d2, %f2, -, H2⟩, ⟨%fs0, %hfs0, HS0⟩, Hk⟩
    obtain rfl := harg3.eq_unread hf0; obtain rfl := harg4.eq_unread hf1; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; iexact H2
    iexists _; iexact HS0

end Cert.Kernel.Hand

end
-- ==== Proof.FrameBits.Body1.lean ====
/-
  The second kernel's accumulator, point by point, and its body obligation. The grid's last coordinate is the slab
  index k = t mod 8. What the accumulator holds after point t: at k = 0 the zeroed buffer plus the slab's partial
  product; at k > 0 what point t − 1 left plus the slab's partial product. At k = 7 the output block receives a copy.
  The region's invariant keeps, after the first point, the accumulator at exactly what the point before left (the
  first kernel's staging buffers and the generator register ride along untouched); before the first point it is the
  plain invariant with the accumulator at anything, and after any point that plain invariant can be recovered.
-/
import proofs.«158109_j78786880078282_1_alg».proof.Proof.FrameBits.Runs1

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each case leaves -/

/-- FIRST slab: the output block gets no store (a placeholder nothing consults: the window is idle and not written back). -/
def out1_A_2 (c : Dev nD) (i : grid1.Coords) (arg3 : Memref sig .tc .vmem S512x1024 .bf16) (harg3 : arg3.IsWhole) (arg4 : Memref sig .tc .vmem S1024x1024 .f32) (harg4 : arg4.IsWhole) (arg5 : Memref sig .tc .vmem S512x1024 .f32) (harg5 : arg5.IsWhole) (arg6 : Memref sig .tc .vmem S512x1024 .f32) (harg6 : arg6.IsWhole) (hc0 : cond1_0 i) (hc1 : ¬cond1_1 i) (x0 : Vec F S512x1024 .bf16) (x1 : Vec F S1024x1024 .f32) : Vec F S512x1024 .f32 :=
  VO1_2.read (Elt F) (VO1_2.writes (Elt F) VO1_2.junk (kernelRun1_A c i arg3 harg3 arg4 harg4 arg5 harg5 arg6 harg6 hc0 hc1 x0 x1).1)
/-- FIRST slab: the stores into the accumulator cover it. -/
theorem scover1_A_0 (c : Dev nD) (i : grid1.Coords) (arg3 : Memref sig .tc .vmem S512x1024 .bf16) (harg3 : arg3.IsWhole) (arg4 : Memref sig .tc .vmem S1024x1024 .f32) (harg4 : arg4.IsWhole) (arg5 : Memref sig .tc .vmem S512x1024 .f32) (harg5 : arg5.IsWhole) (arg6 : Memref sig .tc .vmem S512x1024 .f32) (harg6 : arg6.IsWhole) (hc0 : cond1_0 i) (hc1 : ¬cond1_1 i) (x0 : Vec F S512x1024 .bf16) (x1 : Vec F S1024x1024 .f32) (y : S512x1024.Idx) :
    ∃ pc ∈ (kernelRun1_A c i arg3 harg3 arg4 harg4 arg5 harg5 arg6 harg6 hc0 hc1 x0 x1).2.1, y ∈ pc.1.set :=
  View.cover_of_tiledL (kernelRun1_A c i arg3 harg3 arg4 harg4 arg5 harg5 arg6 harg6 hc0 hc1 x0 x1).2.1 S512x1024.size (by sl_kernel_rfl) y
/-- FIRST slab: what the accumulator holds afterwards. -/
def sout1_A_0 (c : Dev nD) (i : grid1.Coords) (arg3 : Memref sig .tc .vmem S512x1024 .bf16) (harg3 : arg3.IsWhole) (arg4 : Memref sig .tc .vmem S1024x1024 .f32) (harg4 : arg4.IsWhole) (arg5 : Memref sig .tc .vmem S512x1024 .f32) (harg5 : arg5.IsWhole) (arg6 : Memref sig .tc .vmem S512x1024 .f32) (harg6 : arg6.IsWhole) (hc0 : cond1_0 i) (hc1 : ¬cond1_1 i) (x0 : Vec F S512x1024 .bf16) (x1 : Vec F S1024x1024 .f32) : Vec F S512x1024 .f32 :=
  VS1_0.read (Elt F) (VS1_0.writes (Elt F) VS1_0.junk (kernelRun1_A c i arg3 harg3 arg4 harg4 arg5 harg5 arg6 harg6 hc0 hc1 x0 x1).2.1)

/-- MIDDLE slab: the output block gets no store. -/
def out1_B_2 (c : Dev nD) (i : grid1.Coords) (arg3 : Memref sig .tc .vmem S512x1024 .bf16) (harg3 : arg3.IsWhole) (arg4 : Memref sig .tc .vmem S1024x1024 .f32) (harg4 : arg4.IsWhole) (arg5 : Memref sig .tc .vmem S512x1024 .f32) (harg5 : arg5.IsWhole) (arg6 : Memref sig .tc .vmem S512x1024 .f32) (harg6 : arg6.IsWhole) (hc0 : ¬cond1_0 i) (hc1 : ¬cond1_1 i) (x0 : Vec F S512x1024 .bf16) (x1 : Vec F S1024x1024 .f32) (xs0 : Vec F S512x1024 .f32) : Vec F S512x1024 .f32 :=
  VO1_2.read (Elt F) (VO1_2.writes (Elt F) VO1_2.junk (kernelRun1_B c i arg3 harg3 arg4 harg4 arg5 harg5 arg6 harg6 hc0 hc1 x0 x1 xs0).1)
theorem scover1_B_0 (c : Dev nD) (i : grid1.Coords) (arg3 : Memref sig .tc .vmem S512x1024 .bf16) (harg3 : arg3.IsWhole) (arg4 : Memref sig .tc .vmem S1024x1024 .f32) (harg4 : arg4.IsWhole) (arg5 : Memref sig .tc .vmem S512x1024 .f32) (harg5 : arg5.IsWhole) (arg6 : Memref sig .tc .vmem S512x1024 .f32) (harg6 : arg6.IsWhole) (hc0 : ¬cond1_0 i) (hc1 : ¬cond1_1 i) (x0 : Vec F S512x1024 .bf16) (x1 : Vec F S1024x1024 .f32) (xs0 : Vec F S512x1024 .f32) (y : S512x1024.Idx) :
    ∃ pc ∈ (kernelRun1_B c i arg3 harg3 arg4 harg4 arg5 harg5 arg6 harg6 hc0 hc1 x0 x1 xs0).2.1, y ∈ pc.1.set :=
  View.cover_of_tiledL (kernelRun1_B c i arg3 harg3 arg4 harg4 arg5 harg5 arg6 harg6 hc0 hc1 x0 x1 xs0).2.1 S512x1024.size (by sl_kernel_rfl) y
/-- MIDDLE slab: what the accumulator holds afterwards. -/
def sout1_B_0 (c : Dev nD) (i : grid1.Coords) (arg3 : Memref sig .tc .vmem S512x1024 .bf16) (harg3 : arg3.IsWhole) (arg4 : Memref sig .tc .vmem S1024x1024 .f32) (harg4 : arg4.IsWhole) (arg5 : Memref sig .tc .vmem S512x1024 .f32) (harg5 : arg5.IsWhole) (arg6 : Memref sig .tc .vmem S512x1024 .f32) (harg6 : arg6.IsWhole) (hc0 : ¬cond1_0 i) (hc1 : ¬cond1_1 i) (x0 : Vec F S512x1024 .bf16) (x1 : Vec F S1024x1024 .f32) (xs0 : Vec F S512x1024 .f32) : Vec F S512x1024 .f32 :=
  VS1_0.read (Elt F) (VS1_0.writes (Elt F) VS1_0.junk (kernelRun1_B c i arg3 harg3 arg4 harg4 arg5 harg5 arg6 harg6 hc0 hc1 x0 x1 xs0).2.1)

/-- LAST slab: the store into the output block covers it. -/
theorem cover1_C_2 (c : Dev nD) (i : grid1.Coords) (arg3 : Memref sig .tc .vmem S512x1024 .bf16) (harg3 : arg3.IsWhole) (arg4 : Memref sig .tc .vmem S1024x1024 .f32) (harg4 : arg4.IsWhole) (arg5 : Memref sig .tc .vmem S512x1024 .f32) (harg5 : arg5.IsWhole) (arg6 : Memref sig .tc .vmem S512x1024 .f32) (harg6 : arg6.IsWhole) (hc0 : ¬cond1_0 i) (hc1 : cond1_1 i) (x0 : Vec F S512x1024 .bf16) (x1 : Vec F S1024x1024 .f32) (xs0 : Vec F S512x1024 .f32) (y : S512x1024.Idx) :
    ∃ pc ∈ (kernelRun1_C c i arg3 harg3 arg4 harg4 arg5 harg5 arg6 harg6 hc0 hc1 x0 x1 xs0).1, y ∈ pc.1.set :=
  View.cover_of_tiledL (kernelRun1_C c i arg3 harg3 arg4 harg4 arg5 harg5 arg6 harg6 hc0 hc1 x0 x1 xs0).1 S512x1024.size (by sl_kernel_rfl) y
/-- LAST slab: what the output block holds afterwards. -/
def out1_C_2 (c : Dev nD) (i : grid1.Coords) (arg3 : Memref sig .tc .vmem S512x1024 .bf16) (harg3 : arg3.IsWhole) (arg4 : Memref sig .tc .vmem S1024x1024 .f32) (harg4 : arg4.IsWhole) (arg5 : Memref sig .tc .vmem S512x1024 .f32) (harg5 : arg5.IsWhole) (arg6 : Memref sig .tc .vmem S512x1024 .f32) (harg6 : arg6.IsWhole) (hc0 : ¬cond1_0 i) (hc1 : cond1_1 i) (x0 : Vec F S512x1024 .bf16) (x1 : Vec F S1024x1024 .f32) (xs0 : Vec F S512x1024 .f32) : Vec F S512x1024 .f32 :=
  VO1_2.read (Elt F) (VO1_2.writes (Elt F) VO1_2.junk (kernelRun1_C c i arg3 harg3 arg4 harg4 arg5 harg5 arg6 harg6 hc0 hc1 x0 x1 xs0).1)
theorem scover1_C_0 (c : Dev nD) (i : grid1.Coords) (arg3 : Memref sig .tc .vmem S512x1024 .bf16) (harg3 : arg3.IsWhole) (arg4 : Memref sig .tc .vmem S1024x1024 .f32) (harg4 : arg4.IsWhole) (arg5 : Memref sig .tc .vmem S512x1024 .f32) (harg5 : arg5.IsWhole) (arg6 : Memref sig .tc .vmem S512x1024 .f32) (harg6 : arg6.IsWhole) (hc0 : ¬cond1_0 i) (hc1 : cond1_1 i) (x0 : Vec F S512x1024 .bf16) (x1 : Vec F S1024x1024 .f32) (xs0 : Vec F S512x1024 .f32) (y : S512x1024.Idx) :
    ∃ pc ∈ (kernelRun1_C c i arg3 harg3 arg4 harg4 arg5 harg5 arg6 harg6 hc0 hc1 x0 x1 xs0).2.1, y ∈ pc.1.set :=
  View.cover_of_tiledL (kernelRun1_C c i arg3 harg3 arg4 harg4 arg5 harg5 arg6 harg6 hc0 hc1 x0 x1 xs0).2.1 S512x1024.size (by sl_kernel_rfl) y
/-- LAST slab: what the accumulator holds afterwards. -/
def sout1_C_0 (c : Dev nD) (i : grid1.Coords) (arg3 : Memref sig .tc .vmem S512x1024 .bf16) (harg3 : arg3.IsWhole) (arg4 : Memref sig .tc .vmem S1024x1024 .f32) (harg4 : arg4.IsWhole) (arg5 : Memref sig .tc .vmem S512x1024 .f32) (harg5 : arg5.IsWhole) (arg6 : Memref sig .tc .vmem S512x1024 .f32) (harg6 : arg6.IsWhole) (hc0 : ¬cond1_0 i) (hc1 : cond1_1 i) (x0 : Vec F S512x1024 .bf16) (x1 : Vec F S1024x1024 .f32) (xs0 : Vec F S512x1024 .f32) : Vec F S512x1024 .f32 :=
  VS1_0.read (Elt F) (VS1_0.writes (Elt F) VS1_0.junk (kernelRun1_C c i arg3 harg3 arg4 harg4 arg5 harg5 arg6 harg6 hc0 hc1 x0 x1 xs0).2.1)

section Entry
variable (V : (c : Dev nD) → (b : Ref sig .tc) → Buf (Elt F) ((c : Thread nD τ).loc b))

/-! ## The accumulation -/

/-- THE ACCUMULATION: (output block, accumulator) after the body at position `n`, by recursion on the position — the
    case the slab index selects, run on the point's blocks, over what position `n − 1` left in the accumulator. -/
def outsAt1 (c : Dev nD) : (n : ℕ) → n < cfg1.N → Vec F S512x1024 .f32 × Vec F S512x1024 .f32
  | 0, hn => (out1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩),
      sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩))
  | n + 1, hn =>
    if h0 : (n + 1) % 8 = 0 then
      if h1 : (n + 1) % 8 = 7 then
        False.elim (by omega)
      else
        (out1_A_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩),
          sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩))
    else
      if h1 : (n + 1) % 8 = 7 then
        (out1_C_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2,
          sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2)
      else
        (out1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2,
          sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2)

/-- At a point of the first slab. -/
theorem outsAt1_A (c : Dev nD) (t : Fin cfg1.N) (h0 : t.val % 8 = 0) (h1 : ¬t.val % 8 = 7) :
    outsAt1 V c t.val t.isLt = (out1_A_2 c (grid1.coords t) (ms1_0 t) (hs1_0 t) (ms1_1 t) (hs1_1 t) (ms1_2 t) (hs1_2 t) scM1_0 (Memref.isWhole_whole _) ((hcond1_0 t).mpr h0) (fun h => h1 ((hcond1_1 t).mp h)) (iblk1 V c 0 t) (iblk1 V c 1 t),
      sout1_A_0 c (grid1.coords t) (ms1_0 t) (hs1_0 t) (ms1_1 t) (hs1_1 t) (ms1_2 t) (hs1_2 t) scM1_0 (Memref.isWhole_whole _) ((hcond1_0 t).mpr h0) (fun h => h1 ((hcond1_1 t).mp h)) (iblk1 V c 0 t) (iblk1 V c 1 t)) := by
  obtain ⟨n, hn⟩ := t
  cases n with
  | zero => exact rfl
  | succ n => exact (dif_pos h0).trans ((dif_neg h1).trans rfl)

/-- At a point of a middle slab: over what the point before left. -/
theorem outsAt1_B (c : Dev nD) (t : Fin cfg1.N) (h0 : ¬t.val % 8 = 0) (h1 : ¬t.val % 8 = 7) :
    outsAt1 V c t.val t.isLt = (out1_B_2 c (grid1.coords t) (ms1_0 t) (hs1_0 t) (ms1_1 t) (hs1_1 t) (ms1_2 t) (hs1_2 t) scM1_0 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2,
      sout1_B_0 c (grid1.coords t) (ms1_0 t) (hs1_0 t) (ms1_1 t) (hs1_1 t) (ms1_2 t) (hs1_2 t) scM1_0 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- At a point of the last slab: over what the point before left. -/
theorem outsAt1_C (c : Dev nD) (t : Fin cfg1.N) (h0 : ¬t.val % 8 = 0) (h1 : t.val % 8 = 7) :
    outsAt1 V c t.val t.isLt = (out1_C_2 c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2,
      sout1_C_0 c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant -/

/-- Before position `n`: at the start the plain invariant (the accumulator at anything); afterwards the first kernel's
    staging buffers at anything, the accumulator at what position `n − 1` left, the generator register at some state. -/
def PhiS (c : Dev nD) : (n : ℕ) → n ≤ cfg1.N → sProp 𝕄
  | 0, _ => Pipeline.ΦA spec1 c
  | n + 1, hn => iprop(iprop(other c cc0_stg0_0 ∗ other c cc0_stg0_1 ∗ other c cc0_stg1_0 ∗ other c cc0_stg1_1 ∗ other c cc0_stg2_0 ∗ other c cc0_stg2_1 ∗ other c cc0_stg3_0 ∗ other c cc0_stg3_1 ∗ owns (c : Thread nD τ) scM1_0 fullShare ((outsAt1 V c n hn).2)) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop(other c cc0_stg0_0 ∗ other c cc0_stg0_1 ∗ other c cc0_stg1_0 ∗ other c cc0_stg1_1 ∗ other c cc0_stg2_0 ∗ other c cc0_stg2_1 ∗ other c cc0_stg3_0 ∗ other c cc0_stg3_1 ∗ owns (c : Thread nD τ) scM1_0 fullShare ((outsAt1 V c n hn).2)) ∗ (∃ r, prngReg c r)) := rfl

theorem PhiS_pos (c : Dev nD) (n : ℕ) (h : n ≤ cfg1.N) (hz : n ≠ 0) :
    PhiS V c n h = iprop(iprop(other c cc0_stg0_0 ∗ other c cc0_stg0_1 ∗ other c cc0_stg1_0 ∗ other c cc0_stg1_1 ∗ other c cc0_stg2_0 ∗ other c cc0_stg2_1 ∗ other c cc0_stg3_0 ∗ other c cc0_stg3_1 ∗ owns (c : Thread nD τ) scM1_0 fullShare ((outsAt1 V c (n - 1) (by omega)).2)) ∗ (∃ r, prngReg c r)) := by
  cases n with
  | zero => exact absurd rfl hz
  | succ n => rfl

/-! ## The proof data -/

/-- The second kernel's proof data on core `c`, entered with the arrays at `V`: after the body at point `t` each input's
    buffer holds its block and the output's what `outsAt1` says; the invariant is `PhiS`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point, by cases on the slab index: the inputs' buffers hold their blocks; the invariant hands the body
    the accumulator at what the point before left (at anything before the first point) and takes it back at this point's
    contents; away from the last slab the output block is handed back untouched. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS V c (t.val + 1) t.isLt from rfl, PhiS_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  have hN : t.val < 128 := lt_of_lt_of_eq t.isLt (show cfg1.N = 128 from N_1)
  by_cases h0 : t.val % 8 = 0
  · have h1 : ¬t.val % 8 = 7 := by omega
    rw [Dat.leavesExact_idle (dat1 V c) 2 t (idleAt1_2 t (fun h => h1 ((hcond1_1 t).mp h))) (noFlush1_2 t (fun h => h1 ((hcond1_1 t).mp h)))]
    rw [outsAt1_A V c t h0 h1]
    unfold sout1_A_0; (try dsimp only)
    by_cases hz : t.val = 0
    · rw [PhiS_castSucc V c t, PhiS_zero V c _ _ hz, PhiA1_eq]
      iintro ⟨⟨⟨G0, G1, G2, G3, G4, G5, G6, G7, HS0⟩, Hg⟩, Ho, ⟨%d0, H0⟩, ⟨%d1, H1⟩, ⟨%d2, H2⟩⟩
      iapply ((kernelRun1_A c (grid1.coords t) _ _ _ _ _ _ _ _ ((hcond1_0 t).mpr h0) (fun h => h1 ((hcond1_1 t).mp h)) (iblk1 V c 0 t) (iblk1 V c 1 t)).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [G0 G1 G2 G3 G4 G5 G6 G7 HS0 Hg]
      · isplitl [G0 G1 G2 G3 G4 G5 G6 G7 HS0]
        · isplitl [G0]; · iexact G0
          isplitl [G1]; · iexact G1
          isplitl [G2]; · iexact G2
          isplitl [G3]; · iexact G3
          isplitl [G4]; · iexact G4
          isplitl [G5]; · iexact G5
          isplitl [G6]; · iexact G6
          isplitl [G7]; · iexact G7
          unfold owns; iexists _; isplitr
          swap; · iexact HS0
          ipureintro; exact View.read_writes_of_cover _ _ _ _ _ (scover1_A_0 c _ _ _ _ _ _ _ _ _ _ _ _ _)
        iexact Hg
      isplitl [Ho]; · iexact Ho
      isplitl [H0]; · iexact H0
      isplitl [H1]; · iexact H1
      iexists _; iexact H2
    · rw [PhiS_castSucc V c t, PhiS_pos V c _ _ hz]
      iintro ⟨⟨⟨G0, G1, G2, G3, G4, G5, G6, G7, HS0⟩, Hg⟩, Ho, ⟨%d0, H0⟩, ⟨%d1, H1⟩, ⟨%d2, H2⟩⟩
      iapply ((kernelRun1_A c (grid1.coords t) _ _ _ _ _ _ _ _ ((hcond1_0 t).mpr h0) (fun h => h1 ((hcond1_1 t).mp h)) (iblk1 V c 0 t) (iblk1 V c 1 t)).2.2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [G0 G1 G2 G3 G4 G5 G6 G7 HS0 Hg]
      · isplitl [G0 G1 G2 G3 G4 G5 G6 G7 HS0]
        · isplitl [G0]; · iexact G0
          isplitl [G1]; · iexact G1
          isplitl [G2]; · iexact G2
          isplitl [G3]; · iexact G3
          isplitl [G4]; · iexact G4
          isplitl [G5]; · iexact G5
          isplitl [G6]; · iexact G6
          isplitl [G7]; · iexact G7
          unfold owns; iexists _; isplitr
          swap; · iexact HS0
          ipureintro; exact View.read_writes_of_cover _ _ _ _ _ (scover1_A_0 c _ _ _ _ _ _ _ _ _ _ _ _ _)
        iexact Hg
      isplitl [Ho]; · iexact Ho
      isplitl [H0]; · iexact H0
      isplitl [H1]; · iexact H1
      iexists _; iexact H2
  · have hz : t.val ≠ 0 := by omega
    by_cases h1 : t.val % 8 = 7
    · rw [show (dat1 V c).leavesExact 2 t = owns (c : Thread nD τ) (ms1_2 t) fullShare ((dat1 V c).after 2 t) from by
        unfold Dat.leavesExact; rw [liveAt1_2 t ((hcond1_1 t).mpr h1)], after1_2]
      rw [outsAt1_C V c t h0 h1]
      unfold out1_C_2 sout1_C_0; (try dsimp only)
      rw [PhiS_castSucc V c t, PhiS_pos V c _ _ hz]
      iintro ⟨⟨⟨G0, G1, G2, G3, G4, G5, G6, G7, HS0⟩, Hg⟩, Ho, ⟨%d0, H0⟩, ⟨%d1, H1⟩, ⟨%d2, H2⟩⟩
      iapply ((kernelRun1_C c (grid1.coords t) _ _ _ _ _ _ _ _ (fun h => h0 ((hcond1_0 t).mp h)) ((hcond1_1 t).mpr h1) (iblk1 V c 0 t) (iblk1 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [G0 G1 G2 G3 G4 G5 G6 G7 HS0 Hg]
      · isplitl [G0 G1 G2 G3 G4 G5 G6 G7 HS0]
        · isplitl [G0]; · iexact G0
          isplitl [G1]; · iexact G1
          isplitl [G2]; · iexact G2
          isplitl [G3]; · iexact G3
          isplitl [G4]; · iexact G4
          isplitl [G5]; · iexact G5
          isplitl [G6]; · iexact G6
          isplitl [G7]; · iexact G7
          unfold owns; iexists _; isplitr
          swap; · iexact HS0
          ipureintro; exact View.read_writes_of_cover _ _ _ _ _ (scover1_C_0 c _ _ _ _ _ _ _ _ _ _ _ _ _ _)
        iexact Hg
      isplitl [Ho]; · iexact Ho
      isplitl [H0]; · iexact H0
      isplitl [H1]; · iexact H1
      unfold owns; iexists _; isplitr
      swap; · iexact H2
      ipureintro; exact View.read_writes_of_cover _ _ _ _ _ (cover1_C_2 c _ _ _ _ _ _ _ _ _ _ _ _ _ _)
    · rw [Dat.leavesExact_idle (dat1 V c) 2 t (idleAt1_2 t (fun h => h1 ((hcond1_1 t).mp h))) (noFlush1_2 t (fun h => h1 ((hcond1_1 t).mp h)))]
      rw [outsAt1_B V c t h0 h1]
      unfold sout1_B_0; (try dsimp only)
      rw [PhiS_castSucc V c t, PhiS_pos V c _ _ hz]
      iintro ⟨⟨⟨G0, G1, G2, G3, G4, G5, G6, G7, HS0⟩, Hg⟩, Ho, ⟨%d0, H0⟩, ⟨%d1, H1⟩, ⟨%d2, H2⟩⟩
      iapply ((kernelRun1_B c (grid1.coords t) _ _ _ _ _ _ _ _ (fun h => h0 ((hcond1_0 t).mp h)) (fun h => h1 ((hcond1_1 t).mp h)) (iblk1 V c 0 t) (iblk1 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [G0 G1 G2 G3 G4 G5 G6 G7 HS0 Hg]
      · isplitl [G0 G1 G2 G3 G4 G5 G6 G7 HS0]
        · isplitl [G0]; · iexact G0
          isplitl [G1]; · iexact G1
          isplitl [G2]; · iexact G2
          isplitl [G3]; · iexact G3
          isplitl [G4]; · iexact G4
          isplitl [G5]; · iexact G5
          isplitl [G6]; · iexact G6
          isplitl [G7]; · iexact G7
          unfold owns; iexists _; isplitr
          swap; · iexact HS0
          ipureintro; exact View.read_writes_of_cover _ _ _ _ _ (scover1_B_0 c _ _ _ _ _ _ _ _ _ _ _ _ _ _)
        iexact Hg
      isplitl [Ho]; · iexact Ho
      isplitl [H0]; · iexact H0
      isplitl [H1]; · iexact H1
      iexists _; iexact H2

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

/-- What the region hands the kernel is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After any point the invariant gives the plain one back: the accumulator's named contents are forgotten. -/
theorem Phi_out1 (c : Dev nD) (t : Fin (cfg1.N + 1)) (ht : t.val ≠ 0) : (dat1 V c).Φ t ⊢ Pipeline.ΦA spec1 c := by
  rw [show (dat1 V c).Φ t = PhiS V c t.val (Nat.le_of_lt_succ t.isLt) from rfl, PhiS_pos V c _ _ ht, PhiA1_eq]
  iintro ⟨⟨G0, G1, G2, G3, G4, G5, G6, G7, HS0⟩, Hg⟩
  isplitl [G0 G1 G2 G3 G4 G5 G6 G7 HS0]
  · isplitl [G0]; · iexact G0
    isplitl [G1]; · iexact G1
    isplitl [G2]; · iexact G2
    isplitl [G3]; · iexact G3
    isplitl [G4]; · iexact G4
    isplitl [G5]; · iexact G5
    isplitl [G6]; · iexact G6
    isplitl [G7]; · iexact G7
    iexists _; iexact HS0
  iexact Hg

/-- The same after the last point. -/
theorem hout1 (c : Dev nD) : (dat1 V c).Φ (Fin.last cfg1.N) ⊢ Pipeline.ΦA spec1 c :=
  Phi_out1 V c _ (by rw [Fin.val_last]; have : cfg1.N = 128 := N_1; omega)

end Entry

end Cert.Kernel.Hand

end
-- ==== Proof.FrameBits.Run.lean ====
/-
  The whole program's run. @main is four items in a row: a reshape of x to 4096 rows, the first kernel, the second kernel,
  a reshape of the result back to 2 × 2048 rows. Here: what every unscoped buffer holds at each boundary between items,
  as a fold from the launch memory (after a reshape: the host operation applied; after a kernel: its arrays at what its
  write-backs leave, every other buffer as before); the two kernels' proof data, each at its own entry contents; each
  kernel region as a record entered from one boundary's contents and left at the next; the launch; and, read off the
  last boundary, that every weakly fair execution terminates with EVERY unscoped buffer at the fold's last contents —
  in particular each argument array as launched, since no item writes one.
-/
import proofs.«158109_j78786880078282_1_alg».proof.Proof.FrameBits.Body0
import proofs.«158109_j78786880078282_1_alg».proof.Proof.FrameBits.Body1
import proofs.«158109_j78786880078282_1_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev W0 : Dev nD → Valuation τ sig (Elt F) := fun c b => (s₀ m ρ).mem ((c : Dev nD), b)
/-- After the first reshape (the first kernel's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After the first kernel (the second kernel's entry): its arrays at what its write-backs leave. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second kernel: its arrays at what its write-backs leave. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- After the last reshape: the end. -/
abbrev W4 : Dev nD → Valuation τ sig (Elt F) := fun c => StableHlo.after hostOps2 (W3 m ρ c)

/-! ## The arguments end as launched -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := StableHlo.after_of_writes_sub hostOps2 _ hostOps2_writes (by decide : main_arg0 ∉ hostOps2_W)
    _ = W2 m ρ c (Proc.devRef .tc main_arg0) := W3_of_ne m ρ c main_arg0 (by decide)
    _ = W1 m ρ c (Proc.devRef .tc main_arg0) := W2_of_ne m ρ c main_arg0 (by decide)
    _ = W0 m ρ c (Proc.devRef .tc main_arg0) := StableHlo.after_of_writes_sub hostOps0 _ hostOps0_writes (by decide : main_arg0 ∉ hostOps0_W)
    _ = m ((c : Thread nD τ).loc main_arg0) := rfl
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := StableHlo.after_of_writes_sub hostOps2 _ hostOps2_writes (by decide : main_arg1 ∉ hostOps2_W)
    _ = W2 m ρ c (Proc.devRef .tc main_arg1) := W3_of_ne m ρ c main_arg1 (by decide)
    _ = W1 m ρ c (Proc.devRef .tc main_arg1) := (W2_arr m ρ c 1).trans (((dat0 (V1 m ρ) c).arrAt_in 1 rfl _).trans (A_eq0 (V1 m ρ) c 1))
    _ = W0 m ρ c (Proc.devRef .tc main_arg1) := StableHlo.after_of_writes_sub hostOps0 _ hostOps0_writes (by decide : main_arg1 ∉ hostOps0_W)
    _ = m ((c : Thread nD τ).loc main_arg1) := rfl
theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := StableHlo.after_of_writes_sub hostOps2 _ hostOps2_writes (by decide : main_arg2 ∉ hostOps2_W)
    _ = W2 m ρ c (Proc.devRef .tc main_arg2) := W3_of_ne m ρ c main_arg2 (by decide)
    _ = W1 m ρ c (Proc.devRef .tc main_arg2) := (W2_arr m ρ c 2).trans (((dat0 (V1 m ρ) c).arrAt_in 2 rfl _).trans (A_eq0 (V1 m ρ) c 2))
    _ = W0 m ρ c (Proc.devRef .tc main_arg2) := StableHlo.after_of_writes_sub hostOps0 _ hostOps0_writes (by decide : main_arg2 ∉ hostOps0_W)
    _ = m ((c : Thread nD τ).loc main_arg2) := rfl
theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := StableHlo.after_of_writes_sub hostOps2 _ hostOps2_writes (by decide : main_arg3 ∉ hostOps2_W)
    _ = W2 m ρ c (Proc.devRef .tc main_arg3) := (W3_arr m ρ c 1).trans (((dat1 (V2 m ρ) c).arrAt_in 1 rfl _).trans (A_eq1 (V2 m ρ) c 1))
    _ = W1 m ρ c (Proc.devRef .tc main_arg3) := W2_of_ne m ρ c main_arg3 (by decide)
    _ = W0 m ρ c (Proc.devRef .tc main_arg3) := StableHlo.after_of_writes_sub hostOps0 _ hostOps0_writes (by decide : main_arg3 ∉ hostOps0_W)
    _ = m ((c : Thread nD τ).loc main_arg3) := rfl

/-! ## The proof data family and the thread state -/

abbrev adm : (p : Fin 2) → (pcfgs (F := F) p).Adm := fun p => (cfgs p).toPCfg_adm
/-- Both kernels' proof data, each at its entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The kernels as regions -/

set_option backward.isDefEq.respectTransparency.types false in
/-- The first kernel's region: entered with every unscoped buffer at `W1`, left at `W2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second kernel's region: entered with every unscoped buffer at `W2`, left at `W3`. Its invariant starts as the
    plain one and, after the last point, gives the plain one back (the accumulator's contents forgotten). -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (show (pdats m ρ 1 c).Φ (Fin.last _) ⊢ Pipeline.ΦA spec1 c from hout1 (V2 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .host (hseg hostOps2 hostOps2_sub hostOps2_fresh (W3 m ρ)) ]

theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting, and
    in every final memory every unscoped buffer of every core holds the fold's last contents `W4`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c))
    (Tₙ := fun c => StableHlo.held (c : Thread nD τ) (Pipeline.ucRefs τ sig) (W4 m ρ c))
    (hch := ⟨fun _ => .rfl, fun _ => .rfl, fun _ => .rfl, fun _ => .rfl, fun c => sep_mono .rfl (show R c ⊢ (iprop(∃ W, owes (c : Thread nD τ) (0 : CellTallies nD τ sig Unit) W) : sProp 𝕄) from by
      iintro ⟨-, HO⟩; iexact HO)⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨Hh, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-- THE FRAME, at any `F`: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c)⟩) (run_all m ρ)

end Cert.Kernel.Hand

end
-- ==== Proof.FrameIdeal.Shared.lean ====
/-
  What the two kernels' frame proofs share. The program runs two kernels one after the other: the first computes, block by
  block, h = silu(x · gᵀ) * (x · uᵀ) over a grid of 8 × 32 points; the second multiplies h by dᵀ, summing over the long
  axis in 8 slabs of 1024 columns kept in a scratch accumulator, over a grid of 8 × 2 × 8 points whose last coordinate
  is the slab. Here: each window's block at a grid point read off the array the kernel is entered with; that an input's
  staging buffer holds that block at every point; the second kernel's two branch conditions (first slab, last slab)
  decided over the grid; at which points its output window is idle and not written back; and the region invariant
  with the accumulator's buffer split out of the other scoped buffers.
-/
import proofs.«158109_j78786880078282_1_alg».proof.Proof.Gen.KernelIdeal.Launch
import proofs.«158109_j78786880078282_1_alg».proof.Proof.Gen.KernelIdeal.Skeleton
import proofs.«158109_j78786880078282_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Entry
variable (V : (c : Dev nD) → (b : Ref sig .tc) → Buf (Elt F) ((c : Thread nD τ).loc b))

/-! ## The first kernel's blocks -/

/-- Window `w`'s block at point `t` of the first kernel, read off its array as the kernel finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The 512 rows of x a point works on sit in its staging buffer at every point, fetched there or not (the row block
    only moves every 32 points). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- The same for the 256 rows of the gate weights. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- The same for the 256 rows of the up weights. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The second kernel's blocks -/

/-- Window `w`'s block at point `t` of the second kernel, read off its array as the kernel finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The 512 × 1024 block of h a point works on sits in its staging buffer at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- The same for the 1024 × 1024 block of the down weights. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

end Entry

/-! ## The second kernel's branch conditions -/

/-- "This is the first slab": the accumulator is zeroed here. -/
abbrev cond1_0 (i : grid1.Coords) : Prop := (Scalar.cmpi .ne (Scalar.extui (Scalar.cmpi .eq (BitVec.ofNat 32 (i 2).val) 0#32)) 0#32) = 1#1
/-- It holds at the points ≡ 0 (mod 8): the slab index is the grid's last coordinate. -/
theorem hcond1_0 : ∀ t : Fin cfg1.N, cond1_0 (grid1.coords t) ↔ t.val % 8 = 0 :=
  (by decide +kernel : ∀ t : Fin grid1.N, cond1_0 (grid1.coords t) ↔ t.val % 8 = 0)

/-- "This is the last slab": the accumulator is copied to the output block here. -/
abbrev cond1_1 (i : grid1.Coords) : Prop := k1_cond2 i = 1#1
/-- It holds at the points ≡ 7 (mod 8). -/
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the second kernel's windows are idle -/

theorem liveAt1_0 : ∀ t : Fin cfg1.N, cfg1.idle 0 (grid1.coords t) = false := by decide +kernel
theorem liveAt1_1 : ∀ t : Fin cfg1.N, cfg1.idle 1 (grid1.coords t) = false := by decide +kernel
/-- Away from the last slab the output window is idle, -/
theorem idleAt1_2 : ∀ t : Fin cfg1.N, ¬cond1_1 (grid1.coords t) → cfg1.idle 2 (grid1.coords t) = true := by decide +kernel
/-- and its block is not written back there; -/
theorem noFlush1_2 : ∀ t : Fin cfg1.N, ¬cond1_1 (grid1.coords t) → (cfg1.win 2).flush t = false := by decide +kernel
/-- at the last slab it is live. -/
theorem liveAt1_2 : ∀ t : Fin cfg1.N, cond1_1 (grid1.coords t) → cfg1.idle 2 (grid1.coords t) = false := by decide +kernel

/-! ## The second kernel's memrefs -/

/-- One staging buffer of the output window, through which its contents are stated. -/
abbrev VO1_2 : View sig .tc .vmem S512x1024 .f32 := (Memref.whole cc1_stg2_0 : Memref sig .tc .vmem S512x1024 .f32).view
abbrev ms1_0 (t : Fin cfg1.N) : Memref sig .tc .vmem S512x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1024 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S512x1024 .f32 := win1_2.stage (cfg1.slots t 2)
abbrev hs1_2 (t : Fin cfg1.N) : (ms1_2 t).IsWhole := hstage1_2 ((cfg1.slots t 2).cast nbuf1_2)
/-- The accumulator: a whole scoped buffer of the kernel's own, -/
abbrev scM1_0 : Memref sig .tc .vmem S512x1024 .f32 := Memref.whole cc1_scratch0
/-- and the view through which its contents are stated. -/
abbrev VS1_0 : View sig .tc .vmem S512x1024 .f32 := scM1_0.view

/-- A scoped buffer the second kernel never touches (a staging buffer of the first), whole at some contents. -/
abbrev other (c : Dev nD) (b : Ref sig .tc) : sProp 𝕄 :=
  iprop(∃ f : Buf (Elt F) ((c : Thread nD τ).loc b), ((c : Thread nD τ).loc b) ↦{fullShare} f)

/-- The invariant the region hands the second kernel: the first kernel's eight staging buffers at anything, the
    accumulator at anything, the generator register at some state. -/
theorem PhiA1_eq (c : Dev nD) :
    (Pipeline.ΦA spec1 c : sProp 𝕄)
      = iprop(iprop(other c cc0_stg0_0 ∗ other c cc0_stg0_1 ∗ other c cc0_stg1_0 ∗ other c cc0_stg1_1 ∗ other c cc0_stg2_0 ∗ other c cc0_stg2_1 ∗ other c cc0_stg3_0 ∗ other c cc0_stg3_1
          ∗ (∃ d, owns (c : Thread nD τ) scM1_0 fullShare d)) ∗ (∃ r, prngReg c r)) := by
  unfold Pipeline.ΦA; rw [scopedRest1_eq]; simp only [scM1_0, owns_whole]; try rfl

end Cert.KernelIdeal.Hand

end
-- ==== Proof.FrameIdeal.Body0.lean ====
/-
  The first kernel's body. At a grid point it loads a 512 × 2048 block of x and 256 × 2048 blocks of the gate and up
  weights, and stores ONE 512 × 256 block: silu(x · gᵀ) * (x · uᵀ), the two products contracted over all 2048 columns.
  Here: what that store leaves in the output block's buffer as one piece over the three input blocks; the body's triple
  on whole buffers; the proof data of the pipeline (each input's buffer at its block, the output's at that piece,
  nothing carried from point to point); and the body obligation at every point.
-/
import proofs.«158109_j78786880078282_1_alg».proof.Proof.FrameIdeal.Shared

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev r0_x : Rect S512x2048 := Rect.unit (s := S512x2048) ![0, 0] S512x2048.size inb_S512x2048_S512x2048_0_0
abbrev r0_w : Rect S256x2048 := Rect.unit (s := S256x2048) ![0, 0] S256x2048.size inb_S256x2048_S256x2048_0_0
abbrev r0_o : Rect S512x256 := Rect.unit (s := S512x256) ![0, 0] S512x256.size inb_S512x256_S512x256_0_0

/-- The output block's buffer after the body, from the three input blocks: its one store, whole. -/
def out0_3 (x0 : Vec F S512x2048 .f32) (x1 x2 : Vec F S256x2048 .f32) : Vec F S512x256 .bf16 :=
  View.canon [⟨r0_o, k0_pay1 (View.ld x0 r0_x) (View.ld x1 r0_w) (View.ld x2 r0_w)⟩]

/-- The one store covers the block. -/
theorem cover0_3 (p0 : Vec F S512x256 .bf16) (y : S512x256.Idx) :
    ∃ pc ∈ ([⟨r0_o, p0⟩] : List (View.Piece (Elt F) S512x256 .bf16)), y ∈ pc.1.set :=
  View.cover_of_tiled [⟨r0_o, p0⟩] S512x256.size (by rfl) y

set_option maxHeartbeats 1000000 in
/-- The body on whole staging buffers, the inputs' at contents `x0 x1 x2` and the output's at anything, runs to its end
    with the inputs as they were and the output's buffer at `out0_3` of them. -/
theorem sound_kernel0 (c : Dev nD) (E : Set ℕ) (i : grid0.Coords) (arg2 : Memref sig .tc .vmem S512x2048 .f32) (harg2 : arg2.IsWhole) (arg3 : Memref sig .tc .vmem S256x2048 .f32) (harg3 : arg3.IsWhole) (arg4 : Memref sig .tc .vmem S256x2048 .f32) (harg4 : arg4.IsWhole) (arg5 : Memref sig .tc .vmem S512x256 .bf16) (harg5 : arg5.IsWhole)
    (x0 : Vec F S512x2048 .f32) (x1 x2 : Vec F S256x2048 .f32) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d)
        ∗ (iprop(owns (c : Thread nD τ) arg2 fullShare x0 ∗ owns (c : Thread nD τ) arg3 fullShare x1 ∗ owns (c : Thread nD τ) arg4 fullShare x2 ∗ owns (c : Thread nD τ) arg5 fullShare (out0_3 x0 x1 x2)) -∗ K ⟨⟩))
      ⊢ wp frame (wpE (defs₀ (F := F)) Variants.none c none) E (cc0__gate_up_kernel i arg2 harg2 arg3 harg3 arg4 harg4 arg5 harg5) K := by
  simp only [cc0__gate_up_kernel_eq_skeleton]; unfold cc0__gate_up_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

section Entry
variable (V : (c : Dev nD) → (b : Ref sig .tc) → Buf (Elt F) ((c : Thread nD τ).loc b))

/-- The first kernel's proof data on core `c`, entered with the arrays at `V`: after the body at point `t` each input's
    buffer holds its block and the output's `out0_3` of the three blocks; the invariant is the scoped rest and the
    generator register, untouched; nothing is owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' buffers hold their blocks, so `sound_kernel0` applies; the invariant and what
    the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Entry

end Cert.KernelIdeal.Hand

end
-- ==== Proof.FrameIdeal.Runs1.lean ====
/-
  The second kernel's body, run once per control case. A point of its grid is in one of three cases by its slab index
  (the grid's last coordinate): the FIRST slab (the accumulator is zeroed, then the slab's partial product is added),
  a MIDDLE slab (the partial product is added to what the point before left), the LAST slab (the same, and the
  accumulator is then copied into the output block). For each case: the stores the body leaves in the accumulator
  (and, at the last slab, in the output block) as a list of pieces, last first, with the proof that the body, started
  on whole buffers, runs to its end leaving exactly those pieces written and its input blocks as they were.
-/
import proofs.«158109_j78786880078282_1_alg».proof.Proof.FrameIdeal.Shared

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- FIRST slab. The accumulator may hold anything on entry; the output block is handed back untouched. -/
noncomputable def kernelRun1_A (c : Dev nD) (i : grid1.Coords) (arg3 : Memref sig .tc .vmem S512x1024 .bf16) (harg3 : arg3.IsWhole) (arg4 : Memref sig .tc .vmem S1024x1024 .f32) (harg4 : arg4.IsWhole) (arg5 : Memref sig .tc .vmem S512x1024 .f32) (harg5 : arg5.IsWhole) (arg6 : Memref sig .tc .vmem S512x1024 .f32) (harg6 : arg6.IsWhole) (hc0 : cond1_0 i) (hc1 : ¬cond1_1 i)
    (x0 : Vec F S512x1024 .bf16) (x1 : Vec F S1024x1024 .f32) :
    Σ' (L2 : List (View.Piece (Elt F) S512x1024 .f32)), { LS0 : List (View.Piece (Elt F) S512x1024 .f32) //
      ∀ (xi2 : Vec F S512x1024 .f32) (E : Set ℕ) (K : PUnit → sProp 𝕄),
        iprop(owns (c : Thread nD τ) arg3 fullShare x0 ∗ owns (c : Thread nD τ) arg4 fullShare x1 ∗ owns (c : Thread nD τ) arg5 fullShare xi2 ∗ (∃ d, owns (c : Thread nD τ) arg6 fullShare d)
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0)) -∗ K ⟨⟩))
          ⊢ wp frame (wpE (defs₀ (F := F)) Variants.none c none) E (cc1__down_kernel i arg3 harg3 arg4 harg4 arg5 harg5 arg6 harg6) K } := by
  refine ⟨[], ?_, fun xi2 E K => ?run⟩
  case run =>
    simp only [cc1__down_kernel_eq_skeleton]; unfold cc1__down_kernel_skel
    unfold owns
    iintro ⟨⟨%f0, %hf0, H0⟩, ⟨%f1, %hf1, H1⟩, ⟨%f2, %hf2, H2⟩, ⟨%ds, %fs0, -, HS0⟩, Hk⟩
    obtain rfl := harg3.eq_unread hf0; obtain rfl := harg4.eq_unread hf1; obtain rfl := harg5.eq_unread hf2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

set_option maxHeartbeats 1000000 in
/-- MIDDLE slab. The accumulator holds what the point before left (`xs0`); the output block is handed back untouched. -/
noncomputable def kernelRun1_B (c : Dev nD) (i : grid1.Coords) (arg3 : Memref sig .tc .vmem S512x1024 .bf16) (harg3 : arg3.IsWhole) (arg4 : Memref sig .tc .vmem S1024x1024 .f32) (harg4 : arg4.IsWhole) (arg5 : Memref sig .tc .vmem S512x1024 .f32) (harg5 : arg5.IsWhole) (arg6 : Memref sig .tc .vmem S512x1024 .f32) (harg6 : arg6.IsWhole) (hc0 : ¬cond1_0 i) (hc1 : ¬cond1_1 i)
    (x0 : Vec F S512x1024 .bf16) (x1 : Vec F S1024x1024 .f32) (xs0 : Vec F S512x1024 .f32) :
    Σ' (L2 : List (View.Piece (Elt F) S512x1024 .f32)), { LS0 : List (View.Piece (Elt F) S512x1024 .f32) //
      ∀ (xi2 : Vec F S512x1024 .f32) (E : Set ℕ) (K : PUnit → sProp 𝕄),
        iprop(owns (c : Thread nD τ) arg3 fullShare x0 ∗ owns (c : Thread nD τ) arg4 fullShare x1 ∗ owns (c : Thread nD τ) arg5 fullShare xi2 ∗ owns (c : Thread nD τ) arg6 fullShare xs0
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0)) -∗ K ⟨⟩))
          ⊢ wp frame (wpE (defs₀ (F := F)) Variants.none c none) E (cc1__down_kernel i arg3 harg3 arg4 harg4 arg5 harg5 arg6 harg6) K } := by
  refine ⟨[], ?_, fun xi2 E K => ?run⟩
  case run =>
    simp only [cc1__down_kernel_eq_skeleton]; unfold cc1__down_kernel_skel
    unfold owns
    iintro ⟨⟨%f0, %hf0, H0⟩, ⟨%f1, %hf1, H1⟩, ⟨%f2, %hf2, H2⟩, ⟨%fs0, %hfs0, HS0⟩, Hk⟩
    obtain rfl := harg3.eq_unread hf0; obtain rfl := harg4.eq_unread hf1; obtain rfl := harg5.eq_unread hf2; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

set_option maxHeartbeats 1000000 in
/-- LAST slab. The accumulator holds what the point before left (`xs0`); the output block may hold anything and ends
    with the body's store written. -/
noncomputable def kernelRun1_C (c : Dev nD) (i : grid1.Coords) (arg3 : Memref sig .tc .vmem S512x1024 .bf16) (harg3 : arg3.IsWhole) (arg4 : Memref sig .tc .vmem S1024x1024 .f32) (harg4 : arg4.IsWhole) (arg5 : Memref sig .tc .vmem S512x1024 .f32) (harg5 : arg5.IsWhole) (arg6 : Memref sig .tc .vmem S512x1024 .f32) (harg6 : arg6.IsWhole) (hc0 : ¬cond1_0 i) (hc1 : cond1_1 i)
    (x0 : Vec F S512x1024 .bf16) (x1 : Vec F S1024x1024 .f32) (xs0 : Vec F S512x1024 .f32) :
    Σ' (L2 : List (View.Piece (Elt F) S512x1024 .f32)), { LS0 : List (View.Piece (Elt F) S512x1024 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ owns (c : Thread nD τ) arg6 fullShare xs0
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f LS0)) -∗ K ⟨⟩))
          ⊢ wp frame (wpE (defs₀ (F := F)) Variants.none c none) E (cc1__down_kernel i arg3 harg3 arg4 harg4 arg5 harg5 arg6 harg6) K } := by
  refine ⟨?_, ?_, fun E K => ?run⟩
  case run =>
    simp only [cc1__down_kernel_eq_skeleton]; unfold cc1__down_kernel_skel
    unfold owns
    iintro ⟨⟨%f0, %hf0, H0⟩, ⟨%f1, %hf1, H1⟩, ⟨%d2, %f2, -, H2⟩, ⟨%fs0, %hfs0, HS0⟩, Hk⟩
    obtain rfl := harg3.eq_unread hf0; obtain rfl := harg4.eq_unread hf1; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; iexact H2
    iexists _; iexact HS0

end Cert.KernelIdeal.Hand

end
-- ==== Proof.FrameIdeal.Body1.lean ====
/-
  The second kernel's accumulator, point by point, and its body obligation. The grid's last coordinate is the slab
  index k = t mod 8. What the accumulator holds after point t: at k = 0 the zeroed buffer plus the slab's partial
  product; at k > 0 what point t − 1 left plus the slab's partial product. At k = 7 the output block receives a copy.
  The region's invariant keeps, after the first point, the accumulator at exactly what the point before left (the
  first kernel's staging buffers and the generator register ride along untouched); before the first point it is the
  plain invariant with the accumulator at anything, and after any point that plain invariant can be recovered.
-/
import proofs.«158109_j78786880078282_1_alg».proof.Proof.FrameIdeal.Runs1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each case leaves -/

/-- FIRST slab: the output block gets no store (a placeholder nothing consults: the window is idle and not written back). -/
def out1_A_2 (c : Dev nD) (i : grid1.Coords) (arg3 : Memref sig .tc .vmem S512x1024 .bf16) (harg3 : arg3.IsWhole) (arg4 : Memref sig .tc .vmem S1024x1024 .f32) (harg4 : arg4.IsWhole) (arg5 : Memref sig .tc .vmem S512x1024 .f32) (harg5 : arg5.IsWhole) (arg6 : Memref sig .tc .vmem S512x1024 .f32) (harg6 : arg6.IsWhole) (hc0 : cond1_0 i) (hc1 : ¬cond1_1 i) (x0 : Vec F S512x1024 .bf16) (x1 : Vec F S1024x1024 .f32) : Vec F S512x1024 .f32 :=
  VO1_2.read (Elt F) (VO1_2.writes (Elt F) VO1_2.junk (kernelRun1_A c i arg3 harg3 arg4 harg4 arg5 harg5 arg6 harg6 hc0 hc1 x0 x1).1)
/-- FIRST slab: the stores into the accumulator cover it. -/
theorem scover1_A_0 (c : Dev nD) (i : grid1.Coords) (arg3 : Memref sig .tc .vmem S512x1024 .bf16) (harg3 : arg3.IsWhole) (arg4 : Memref sig .tc .vmem S1024x1024 .f32) (harg4 : arg4.IsWhole) (arg5 : Memref sig .tc .vmem S512x1024 .f32) (harg5 : arg5.IsWhole) (arg6 : Memref sig .tc .vmem S512x1024 .f32) (harg6 : arg6.IsWhole) (hc0 : cond1_0 i) (hc1 : ¬cond1_1 i) (x0 : Vec F S512x1024 .bf16) (x1 : Vec F S1024x1024 .f32) (y : S512x1024.Idx) :
    ∃ pc ∈ (kernelRun1_A c i arg3 harg3 arg4 harg4 arg5 harg5 arg6 harg6 hc0 hc1 x0 x1).2.1, y ∈ pc.1.set :=
  View.cover_of_tiledL (kernelRun1_A c i arg3 harg3 arg4 harg4 arg5 harg5 arg6 harg6 hc0 hc1 x0 x1).2.1 S512x1024.size (by sl_kernel_rfl) y
/-- FIRST slab: what the accumulator holds afterwards. -/
def sout1_A_0 (c : Dev nD) (i : grid1.Coords) (arg3 : Memref sig .tc .vmem S512x1024 .bf16) (harg3 : arg3.IsWhole) (arg4 : Memref sig .tc .vmem S1024x1024 .f32) (harg4 : arg4.IsWhole) (arg5 : Memref sig .tc .vmem S512x1024 .f32) (harg5 : arg5.IsWhole) (arg6 : Memref sig .tc .vmem S512x1024 .f32) (harg6 : arg6.IsWhole) (hc0 : cond1_0 i) (hc1 : ¬cond1_1 i) (x0 : Vec F S512x1024 .bf16) (x1 : Vec F S1024x1024 .f32) : Vec F S512x1024 .f32 :=
  VS1_0.read (Elt F) (VS1_0.writes (Elt F) VS1_0.junk (kernelRun1_A c i arg3 harg3 arg4 harg4 arg5 harg5 arg6 harg6 hc0 hc1 x0 x1).2.1)

/-- MIDDLE slab: the output block gets no store. -/
def out1_B_2 (c : Dev nD) (i : grid1.Coords) (arg3 : Memref sig .tc .vmem S512x1024 .bf16) (harg3 : arg3.IsWhole) (arg4 : Memref sig .tc .vmem S1024x1024 .f32) (harg4 : arg4.IsWhole) (arg5 : Memref sig .tc .vmem S512x1024 .f32) (harg5 : arg5.IsWhole) (arg6 : Memref sig .tc .vmem S512x1024 .f32) (harg6 : arg6.IsWhole) (hc0 : ¬cond1_0 i) (hc1 : ¬cond1_1 i) (x0 : Vec F S512x1024 .bf16) (x1 : Vec F S1024x1024 .f32) (xs0 : Vec F S512x1024 .f32) : Vec F S512x1024 .f32 :=
  VO1_2.read (Elt F) (VO1_2.writes (Elt F) VO1_2.junk (kernelRun1_B c i arg3 harg3 arg4 harg4 arg5 harg5 arg6 harg6 hc0 hc1 x0 x1 xs0).1)
theorem scover1_B_0 (c : Dev nD) (i : grid1.Coords) (arg3 : Memref sig .tc .vmem S512x1024 .bf16) (harg3 : arg3.IsWhole) (arg4 : Memref sig .tc .vmem S1024x1024 .f32) (harg4 : arg4.IsWhole) (arg5 : Memref sig .tc .vmem S512x1024 .f32) (harg5 : arg5.IsWhole) (arg6 : Memref sig .tc .vmem S512x1024 .f32) (harg6 : arg6.IsWhole) (hc0 : ¬cond1_0 i) (hc1 : ¬cond1_1 i) (x0 : Vec F S512x1024 .bf16) (x1 : Vec F S1024x1024 .f32) (xs0 : Vec F S512x1024 .f32) (y : S512x1024.Idx) :
    ∃ pc ∈ (kernelRun1_B c i arg3 harg3 arg4 harg4 arg5 harg5 arg6 harg6 hc0 hc1 x0 x1 xs0).2.1, y ∈ pc.1.set :=
  View.cover_of_tiledL (kernelRun1_B c i arg3 harg3 arg4 harg4 arg5 harg5 arg6 harg6 hc0 hc1 x0 x1 xs0).2.1 S512x1024.size (by sl_kernel_rfl) y
/-- MIDDLE slab: what the accumulator holds afterwards. -/
def sout1_B_0 (c : Dev nD) (i : grid1.Coords) (arg3 : Memref sig .tc .vmem S512x1024 .bf16) (harg3 : arg3.IsWhole) (arg4 : Memref sig .tc .vmem S1024x1024 .f32) (harg4 : arg4.IsWhole) (arg5 : Memref sig .tc .vmem S512x1024 .f32) (harg5 : arg5.IsWhole) (arg6 : Memref sig .tc .vmem S512x1024 .f32) (harg6 : arg6.IsWhole) (hc0 : ¬cond1_0 i) (hc1 : ¬cond1_1 i) (x0 : Vec F S512x1024 .bf16) (x1 : Vec F S1024x1024 .f32) (xs0 : Vec F S512x1024 .f32) : Vec F S512x1024 .f32 :=
  VS1_0.read (Elt F) (VS1_0.writes (Elt F) VS1_0.junk (kernelRun1_B c i arg3 harg3 arg4 harg4 arg5 harg5 arg6 harg6 hc0 hc1 x0 x1 xs0).2.1)

/-- LAST slab: the store into the output block covers it. -/
theorem cover1_C_2 (c : Dev nD) (i : grid1.Coords) (arg3 : Memref sig .tc .vmem S512x1024 .bf16) (harg3 : arg3.IsWhole) (arg4 : Memref sig .tc .vmem S1024x1024 .f32) (harg4 : arg4.IsWhole) (arg5 : Memref sig .tc .vmem S512x1024 .f32) (harg5 : arg5.IsWhole) (arg6 : Memref sig .tc .vmem S512x1024 .f32) (harg6 : arg6.IsWhole) (hc0 : ¬cond1_0 i) (hc1 : cond1_1 i) (x0 : Vec F S512x1024 .bf16) (x1 : Vec F S1024x1024 .f32) (xs0 : Vec F S512x1024 .f32) (y : S512x1024.Idx) :
    ∃ pc ∈ (kernelRun1_C c i arg3 harg3 arg4 harg4 arg5 harg5 arg6 harg6 hc0 hc1 x0 x1 xs0).1, y ∈ pc.1.set :=
  View.cover_of_tiledL (kernelRun1_C c i arg3 harg3 arg4 harg4 arg5 harg5 arg6 harg6 hc0 hc1 x0 x1 xs0).1 S512x1024.size (by sl_kernel_rfl) y
/-- LAST slab: what the output block holds afterwards. -/
def out1_C_2 (c : Dev nD) (i : grid1.Coords) (arg3 : Memref sig .tc .vmem S512x1024 .bf16) (harg3 : arg3.IsWhole) (arg4 : Memref sig .tc .vmem S1024x1024 .f32) (harg4 : arg4.IsWhole) (arg5 : Memref sig .tc .vmem S512x1024 .f32) (harg5 : arg5.IsWhole) (arg6 : Memref sig .tc .vmem S512x1024 .f32) (harg6 : arg6.IsWhole) (hc0 : ¬cond1_0 i) (hc1 : cond1_1 i) (x0 : Vec F S512x1024 .bf16) (x1 : Vec F S1024x1024 .f32) (xs0 : Vec F S512x1024 .f32) : Vec F S512x1024 .f32 :=
  VO1_2.read (Elt F) (VO1_2.writes (Elt F) VO1_2.junk (kernelRun1_C c i arg3 harg3 arg4 harg4 arg5 harg5 arg6 harg6 hc0 hc1 x0 x1 xs0).1)
theorem scover1_C_0 (c : Dev nD) (i : grid1.Coords) (arg3 : Memref sig .tc .vmem S512x1024 .bf16) (harg3 : arg3.IsWhole) (arg4 : Memref sig .tc .vmem S1024x1024 .f32) (harg4 : arg4.IsWhole) (arg5 : Memref sig .tc .vmem S512x1024 .f32) (harg5 : arg5.IsWhole) (arg6 : Memref sig .tc .vmem S512x1024 .f32) (harg6 : arg6.IsWhole) (hc0 : ¬cond1_0 i) (hc1 : cond1_1 i) (x0 : Vec F S512x1024 .bf16) (x1 : Vec F S1024x1024 .f32) (xs0 : Vec F S512x1024 .f32) (y : S512x1024.Idx) :
    ∃ pc ∈ (kernelRun1_C c i arg3 harg3 arg4 harg4 arg5 harg5 arg6 harg6 hc0 hc1 x0 x1 xs0).2.1, y ∈ pc.1.set :=
  View.cover_of_tiledL (kernelRun1_C c i arg3 harg3 arg4 harg4 arg5 harg5 arg6 harg6 hc0 hc1 x0 x1 xs0).2.1 S512x1024.size (by sl_kernel_rfl) y
/-- LAST slab: what the accumulator holds afterwards. -/
def sout1_C_0 (c : Dev nD) (i : grid1.Coords) (arg3 : Memref sig .tc .vmem S512x1024 .bf16) (harg3 : arg3.IsWhole) (arg4 : Memref sig .tc .vmem S1024x1024 .f32) (harg4 : arg4.IsWhole) (arg5 : Memref sig .tc .vmem S512x1024 .f32) (harg5 : arg5.IsWhole) (arg6 : Memref sig .tc .vmem S512x1024 .f32) (harg6 : arg6.IsWhole) (hc0 : ¬cond1_0 i) (hc1 : cond1_1 i) (x0 : Vec F S512x1024 .bf16) (x1 : Vec F S1024x1024 .f32) (xs0 : Vec F S512x1024 .f32) : Vec F S512x1024 .f32 :=
  VS1_0.read (Elt F) (VS1_0.writes (Elt F) VS1_0.junk (kernelRun1_C c i arg3 harg3 arg4 harg4 arg5 harg5 arg6 harg6 hc0 hc1 x0 x1 xs0).2.1)

section Entry
variable (V : (c : Dev nD) → (b : Ref sig .tc) → Buf (Elt F) ((c : Thread nD τ).loc b))

/-! ## The accumulation -/

/-- THE ACCUMULATION: (output block, accumulator) after the body at position `n`, by recursion on the position — the
    case the slab index selects, run on the point's blocks, over what position `n − 1` left in the accumulator. -/
def outsAt1 (c : Dev nD) : (n : ℕ) → n < cfg1.N → Vec F S512x1024 .f32 × Vec F S512x1024 .f32
  | 0, hn => (out1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩),
      sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩))
  | n + 1, hn =>
    if h0 : (n + 1) % 8 = 0 then
      if h1 : (n + 1) % 8 = 7 then
        False.elim (by omega)
      else
        (out1_A_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩),
          sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩))
    else
      if h1 : (n + 1) % 8 = 7 then
        (out1_C_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2,
          sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2)
      else
        (out1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2,
          sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2)

/-- At a point of the first slab. -/
theorem outsAt1_A (c : Dev nD) (t : Fin cfg1.N) (h0 : t.val % 8 = 0) (h1 : ¬t.val % 8 = 7) :
    outsAt1 V c t.val t.isLt = (out1_A_2 c (grid1.coords t) (ms1_0 t) (hs1_0 t) (ms1_1 t) (hs1_1 t) (ms1_2 t) (hs1_2 t) scM1_0 (Memref.isWhole_whole _) ((hcond1_0 t).mpr h0) (fun h => h1 ((hcond1_1 t).mp h)) (iblk1 V c 0 t) (iblk1 V c 1 t),
      sout1_A_0 c (grid1.coords t) (ms1_0 t) (hs1_0 t) (ms1_1 t) (hs1_1 t) (ms1_2 t) (hs1_2 t) scM1_0 (Memref.isWhole_whole _) ((hcond1_0 t).mpr h0) (fun h => h1 ((hcond1_1 t).mp h)) (iblk1 V c 0 t) (iblk1 V c 1 t)) := by
  obtain ⟨n, hn⟩ := t
  cases n with
  | zero => exact rfl
  | succ n => exact (dif_pos h0).trans ((dif_neg h1).trans rfl)

/-- At a point of a middle slab: over what the point before left. -/
theorem outsAt1_B (c : Dev nD) (t : Fin cfg1.N) (h0 : ¬t.val % 8 = 0) (h1 : ¬t.val % 8 = 7) :
    outsAt1 V c t.val t.isLt = (out1_B_2 c (grid1.coords t) (ms1_0 t) (hs1_0 t) (ms1_1 t) (hs1_1 t) (ms1_2 t) (hs1_2 t) scM1_0 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2,
      sout1_B_0 c (grid1.coords t) (ms1_0 t) (hs1_0 t) (ms1_1 t) (hs1_1 t) (ms1_2 t) (hs1_2 t) scM1_0 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- At a point of the last slab: over what the point before left. -/
theorem outsAt1_C (c : Dev nD) (t : Fin cfg1.N) (h0 : ¬t.val % 8 = 0) (h1 : t.val % 8 = 7) :
    outsAt1 V c t.val t.isLt = (out1_C_2 c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2,
      sout1_C_0 c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant -/

/-- Before position `n`: at the start the plain invariant (the accumulator at anything); afterwards the first kernel's
    staging buffers at anything, the accumulator at what position `n − 1` left, the generator register at some state. -/
def PhiS (c : Dev nD) : (n : ℕ) → n ≤ cfg1.N → sProp 𝕄
  | 0, _ => Pipeline.ΦA spec1 c
  | n + 1, hn => iprop(iprop(other c cc0_stg0_0 ∗ other c cc0_stg0_1 ∗ other c cc0_stg1_0 ∗ other c cc0_stg1_1 ∗ other c cc0_stg2_0 ∗ other c cc0_stg2_1 ∗ other c cc0_stg3_0 ∗ other c cc0_stg3_1 ∗ owns (c : Thread nD τ) scM1_0 fullShare ((outsAt1 V c n hn).2)) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop(other c cc0_stg0_0 ∗ other c cc0_stg0_1 ∗ other c cc0_stg1_0 ∗ other c cc0_stg1_1 ∗ other c cc0_stg2_0 ∗ other c cc0_stg2_1 ∗ other c cc0_stg3_0 ∗ other c cc0_stg3_1 ∗ owns (c : Thread nD τ) scM1_0 fullShare ((outsAt1 V c n hn).2)) ∗ (∃ r, prngReg c r)) := rfl

theorem PhiS_pos (c : Dev nD) (n : ℕ) (h : n ≤ cfg1.N) (hz : n ≠ 0) :
    PhiS V c n h = iprop(iprop(other c cc0_stg0_0 ∗ other c cc0_stg0_1 ∗ other c cc0_stg1_0 ∗ other c cc0_stg1_1 ∗ other c cc0_stg2_0 ∗ other c cc0_stg2_1 ∗ other c cc0_stg3_0 ∗ other c cc0_stg3_1 ∗ owns (c : Thread nD τ) scM1_0 fullShare ((outsAt1 V c (n - 1) (by omega)).2)) ∗ (∃ r, prngReg c r)) := by
  cases n with
  | zero => exact absurd rfl hz
  | succ n => rfl

/-! ## The proof data -/

/-- The second kernel's proof data on core `c`, entered with the arrays at `V`: after the body at point `t` each input's
    buffer holds its block and the output's what `outsAt1` says; the invariant is `PhiS`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point, by cases on the slab index: the inputs' buffers hold their blocks; the invariant hands the body
    the accumulator at what the point before left (at anything before the first point) and takes it back at this point's
    contents; away from the last slab the output block is handed back untouched. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS V c (t.val + 1) t.isLt from rfl, PhiS_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  have hN : t.val < 128 := lt_of_lt_of_eq t.isLt (show cfg1.N = 128 from N_1)
  by_cases h0 : t.val % 8 = 0
  · have h1 : ¬t.val % 8 = 7 := by omega
    rw [Dat.leavesExact_idle (dat1 V c) 2 t (idleAt1_2 t (fun h => h1 ((hcond1_1 t).mp h))) (noFlush1_2 t (fun h => h1 ((hcond1_1 t).mp h)))]
    rw [outsAt1_A V c t h0 h1]
    unfold sout1_A_0; (try dsimp only)
    by_cases hz : t.val = 0
    · rw [PhiS_castSucc V c t, PhiS_zero V c _ _ hz, PhiA1_eq]
      iintro ⟨⟨⟨G0, G1, G2, G3, G4, G5, G6, G7, HS0⟩, Hg⟩, Ho, ⟨%d0, H0⟩, ⟨%d1, H1⟩, ⟨%d2, H2⟩⟩
      iapply ((kernelRun1_A c (grid1.coords t) _ _ _ _ _ _ _ _ ((hcond1_0 t).mpr h0) (fun h => h1 ((hcond1_1 t).mp h)) (iblk1 V c 0 t) (iblk1 V c 1 t)).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [G0 G1 G2 G3 G4 G5 G6 G7 HS0 Hg]
      · isplitl [G0 G1 G2 G3 G4 G5 G6 G7 HS0]
        · isplitl [G0]; · iexact G0
          isplitl [G1]; · iexact G1
          isplitl [G2]; · iexact G2
          isplitl [G3]; · iexact G3
          isplitl [G4]; · iexact G4
          isplitl [G5]; · iexact G5
          isplitl [G6]; · iexact G6
          isplitl [G7]; · iexact G7
          unfold owns; iexists _; isplitr
          swap; · iexact HS0
          ipureintro; exact View.read_writes_of_cover _ _ _ _ _ (scover1_A_0 c _ _ _ _ _ _ _ _ _ _ _ _ _)
        iexact Hg
      isplitl [Ho]; · iexact Ho
      isplitl [H0]; · iexact H0
      isplitl [H1]; · iexact H1
      iexists _; iexact H2
    · rw [PhiS_castSucc V c t, PhiS_pos V c _ _ hz]
      iintro ⟨⟨⟨G0, G1, G2, G3, G4, G5, G6, G7, HS0⟩, Hg⟩, Ho, ⟨%d0, H0⟩, ⟨%d1, H1⟩, ⟨%d2, H2⟩⟩
      iapply ((kernelRun1_A c (grid1.coords t) _ _ _ _ _ _ _ _ ((hcond1_0 t).mpr h0) (fun h => h1 ((hcond1_1 t).mp h)) (iblk1 V c 0 t) (iblk1 V c 1 t)).2.2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [G0 G1 G2 G3 G4 G5 G6 G7 HS0 Hg]
      · isplitl [G0 G1 G2 G3 G4 G5 G6 G7 HS0]
        · isplitl [G0]; · iexact G0
          isplitl [G1]; · iexact G1
          isplitl [G2]; · iexact G2
          isplitl [G3]; · iexact G3
          isplitl [G4]; · iexact G4
          isplitl [G5]; · iexact G5
          isplitl [G6]; · iexact G6
          isplitl [G7]; · iexact G7
          unfold owns; iexists _; isplitr
          swap; · iexact HS0
          ipureintro; exact View.read_writes_of_cover _ _ _ _ _ (scover1_A_0 c _ _ _ _ _ _ _ _ _ _ _ _ _)
        iexact Hg
      isplitl [Ho]; · iexact Ho
      isplitl [H0]; · iexact H0
      isplitl [H1]; · iexact H1
      iexists _; iexact H2
  · have hz : t.val ≠ 0 := by omega
    by_cases h1 : t.val % 8 = 7
    · rw [show (dat1 V c).leavesExact 2 t = owns (c : Thread nD τ) (ms1_2 t) fullShare ((dat1 V c).after 2 t) from by
        unfold Dat.leavesExact; rw [liveAt1_2 t ((hcond1_1 t).mpr h1)], after1_2]
      rw [outsAt1_C V c t h0 h1]
      unfold out1_C_2 sout1_C_0; (try dsimp only)
      rw [PhiS_castSucc V c t, PhiS_pos V c _ _ hz]
      iintro ⟨⟨⟨G0, G1, G2, G3, G4, G5, G6, G7, HS0⟩, Hg⟩, Ho, ⟨%d0, H0⟩, ⟨%d1, H1⟩, ⟨%d2, H2⟩⟩
      iapply ((kernelRun1_C c (grid1.coords t) _ _ _ _ _ _ _ _ (fun h => h0 ((hcond1_0 t).mp h)) ((hcond1_1 t).mpr h1) (iblk1 V c 0 t) (iblk1 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [G0 G1 G2 G3 G4 G5 G6 G7 HS0 Hg]
      · isplitl [G0 G1 G2 G3 G4 G5 G6 G7 HS0]
        · isplitl [G0]; · iexact G0
          isplitl [G1]; · iexact G1
          isplitl [G2]; · iexact G2
          isplitl [G3]; · iexact G3
          isplitl [G4]; · iexact G4
          isplitl [G5]; · iexact G5
          isplitl [G6]; · iexact G6
          isplitl [G7]; · iexact G7
          unfold owns; iexists _; isplitr
          swap; · iexact HS0
          ipureintro; exact View.read_writes_of_cover _ _ _ _ _ (scover1_C_0 c _ _ _ _ _ _ _ _ _ _ _ _ _ _)
        iexact Hg
      isplitl [Ho]; · iexact Ho
      isplitl [H0]; · iexact H0
      isplitl [H1]; · iexact H1
      unfold owns; iexists _; isplitr
      swap; · iexact H2
      ipureintro; exact View.read_writes_of_cover _ _ _ _ _ (cover1_C_2 c _ _ _ _ _ _ _ _ _ _ _ _ _ _)
    · rw [Dat.leavesExact_idle (dat1 V c) 2 t (idleAt1_2 t (fun h => h1 ((hcond1_1 t).mp h))) (noFlush1_2 t (fun h => h1 ((hcond1_1 t).mp h)))]
      rw [outsAt1_B V c t h0 h1]
      unfold sout1_B_0; (try dsimp only)
      rw [PhiS_castSucc V c t, PhiS_pos V c _ _ hz]
      iintro ⟨⟨⟨G0, G1, G2, G3, G4, G5, G6, G7, HS0⟩, Hg⟩, Ho, ⟨%d0, H0⟩, ⟨%d1, H1⟩, ⟨%d2, H2⟩⟩
      iapply ((kernelRun1_B c (grid1.coords t) _ _ _ _ _ _ _ _ (fun h => h0 ((hcond1_0 t).mp h)) (fun h => h1 ((hcond1_1 t).mp h)) (iblk1 V c 0 t) (iblk1 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [G0 G1 G2 G3 G4 G5 G6 G7 HS0 Hg]
      · isplitl [G0 G1 G2 G3 G4 G5 G6 G7 HS0]
        · isplitl [G0]; · iexact G0
          isplitl [G1]; · iexact G1
          isplitl [G2]; · iexact G2
          isplitl [G3]; · iexact G3
          isplitl [G4]; · iexact G4
          isplitl [G5]; · iexact G5
          isplitl [G6]; · iexact G6
          isplitl [G7]; · iexact G7
          unfold owns; iexists _; isplitr
          swap; · iexact HS0
          ipureintro; exact View.read_writes_of_cover _ _ _ _ _ (scover1_B_0 c _ _ _ _ _ _ _ _ _ _ _ _ _ _)
        iexact Hg
      isplitl [Ho]; · iexact Ho
      isplitl [H0]; · iexact H0
      isplitl [H1]; · iexact H1
      iexists _; iexact H2

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

/-- What the region hands the kernel is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After any point the invariant gives the plain one back: the accumulator's named contents are forgotten. -/
theorem Phi_out1 (c : Dev nD) (t : Fin (cfg1.N + 1)) (ht : t.val ≠ 0) : (dat1 V c).Φ t ⊢ Pipeline.ΦA spec1 c := by
  rw [show (dat1 V c).Φ t = PhiS V c t.val (Nat.le_of_lt_succ t.isLt) from rfl, PhiS_pos V c _ _ ht, PhiA1_eq]
  iintro ⟨⟨G0, G1, G2, G3, G4, G5, G6, G7, HS0⟩, Hg⟩
  isplitl [G0 G1 G2 G3 G4 G5 G6 G7 HS0]
  · isplitl [G0]; · iexact G0
    isplitl [G1]; · iexact G1
    isplitl [G2]; · iexact G2
    isplitl [G3]; · iexact G3
    isplitl [G4]; · iexact G4
    isplitl [G5]; · iexact G5
    isplitl [G6]; · iexact G6
    isplitl [G7]; · iexact G7
    iexists _; iexact HS0
  iexact Hg

/-- The same after the last point. -/
theorem hout1 (c : Dev nD) : (dat1 V c).Φ (Fin.last cfg1.N) ⊢ Pipeline.ΦA spec1 c :=
  Phi_out1 V c _ (by rw [Fin.val_last]; have : cfg1.N = 128 := N_1; omega)

end Entry

end Cert.KernelIdeal.Hand

end
-- ==== Proof.FrameIdeal.Run.lean ====
/-
  The whole program's run. @main is four items in a row: a reshape of x to 4096 rows, the first kernel, the second kernel,
  a reshape of the result back to 2 × 2048 rows. Here: what every unscoped buffer holds at each boundary between items,
  as a fold from the launch memory (after a reshape: the host operation applied; after a kernel: its arrays at what its
  write-backs leave, every other buffer as before); the two kernels' proof data, each at its own entry contents; each
  kernel region as a record entered from one boundary's contents and left at the next; the launch; and, read off the
  last boundary, that every weakly fair execution terminates with EVERY unscoped buffer at the fold's last contents —
  in particular each argument array as launched, since no item writes one.
-/
import proofs.«158109_j78786880078282_1_alg».proof.Proof.FrameIdeal.Body0
import proofs.«158109_j78786880078282_1_alg».proof.Proof.FrameIdeal.Body1
import proofs.«158109_j78786880078282_1_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev W0 : Dev nD → Valuation τ sig (Elt F) := fun c b => (s₀ m ρ).mem ((c : Dev nD), b)
/-- After the first reshape (the first kernel's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After the first kernel (the second kernel's entry): its arrays at what its write-backs leave. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second kernel: its arrays at what its write-backs leave. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- After the last reshape: the end. -/
abbrev W4 : Dev nD → Valuation τ sig (Elt F) := fun c => StableHlo.after hostOps2 (W3 m ρ c)

/-! ## The arguments end as launched -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := StableHlo.after_of_writes_sub hostOps2 _ hostOps2_writes (by decide : main_arg0 ∉ hostOps2_W)
    _ = W2 m ρ c (Proc.devRef .tc main_arg0) := W3_of_ne m ρ c main_arg0 (by decide)
    _ = W1 m ρ c (Proc.devRef .tc main_arg0) := W2_of_ne m ρ c main_arg0 (by decide)
    _ = W0 m ρ c (Proc.devRef .tc main_arg0) := StableHlo.after_of_writes_sub hostOps0 _ hostOps0_writes (by decide : main_arg0 ∉ hostOps0_W)
    _ = m ((c : Thread nD τ).loc main_arg0) := rfl
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := StableHlo.after_of_writes_sub hostOps2 _ hostOps2_writes (by decide : main_arg1 ∉ hostOps2_W)
    _ = W2 m ρ c (Proc.devRef .tc main_arg1) := W3_of_ne m ρ c main_arg1 (by decide)
    _ = W1 m ρ c (Proc.devRef .tc main_arg1) := (W2_arr m ρ c 1).trans (((dat0 (V1 m ρ) c).arrAt_in 1 rfl _).trans (A_eq0 (V1 m ρ) c 1))
    _ = W0 m ρ c (Proc.devRef .tc main_arg1) := StableHlo.after_of_writes_sub hostOps0 _ hostOps0_writes (by decide : main_arg1 ∉ hostOps0_W)
    _ = m ((c : Thread nD τ).loc main_arg1) := rfl
theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := StableHlo.after_of_writes_sub hostOps2 _ hostOps2_writes (by decide : main_arg2 ∉ hostOps2_W)
    _ = W2 m ρ c (Proc.devRef .tc main_arg2) := W3_of_ne m ρ c main_arg2 (by decide)
    _ = W1 m ρ c (Proc.devRef .tc main_arg2) := (W2_arr m ρ c 2).trans (((dat0 (V1 m ρ) c).arrAt_in 2 rfl _).trans (A_eq0 (V1 m ρ) c 2))
    _ = W0 m ρ c (Proc.devRef .tc main_arg2) := StableHlo.after_of_writes_sub hostOps0 _ hostOps0_writes (by decide : main_arg2 ∉ hostOps0_W)
    _ = m ((c : Thread nD τ).loc main_arg2) := rfl
theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := StableHlo.after_of_writes_sub hostOps2 _ hostOps2_writes (by decide : main_arg3 ∉ hostOps2_W)
    _ = W2 m ρ c (Proc.devRef .tc main_arg3) := (W3_arr m ρ c 1).trans (((dat1 (V2 m ρ) c).arrAt_in 1 rfl _).trans (A_eq1 (V2 m ρ) c 1))
    _ = W1 m ρ c (Proc.devRef .tc main_arg3) := W2_of_ne m ρ c main_arg3 (by decide)
    _ = W0 m ρ c (Proc.devRef .tc main_arg3) := StableHlo.after_of_writes_sub hostOps0 _ hostOps0_writes (by decide : main_arg3 ∉ hostOps0_W)
    _ = m ((c : Thread nD τ).loc main_arg3) := rfl

/-! ## The proof data family and the thread state -/

abbrev adm : (p : Fin 2) → (pcfgs (F := F) p).Adm := fun p => (cfgs p).toPCfg_adm
/-- Both kernels' proof data, each at its entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The kernels as regions -/

set_option backward.isDefEq.respectTransparency.types false in
/-- The first kernel's region: entered with every unscoped buffer at `W1`, left at `W2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second kernel's region: entered with every unscoped buffer at `W2`, left at `W3`. Its invariant starts as the
    plain one and, after the last point, gives the plain one back (the accumulator's contents forgotten). -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (show (pdats m ρ 1 c).Φ (Fin.last _) ⊢ Pipeline.ΦA spec1 c from hout1 (V2 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .host (hseg hostOps2 hostOps2_sub hostOps2_fresh (W3 m ρ)) ]

theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting, and
    in every final memory every unscoped buffer of every core holds the fold's last contents `W4`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c))
    (Tₙ := fun c => StableHlo.held (c : Thread nD τ) (Pipeline.ucRefs τ sig) (W4 m ρ c))
    (hch := ⟨fun _ => .rfl, fun _ => .rfl, fun _ => .rfl, fun _ => .rfl, fun c => sep_mono .rfl (show R c ⊢ (iprop(∃ W, owes (c : Thread nD τ) (0 : CellTallies nD τ sig Unit) W) : sProp 𝕄) from by
      iintro ⟨-, HO⟩; iexact HO)⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨Hh, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-- THE FRAME, at any `F`: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c)⟩) (run_all m ρ)

end Cert.KernelIdeal.Hand

end
-- ==== Proof.Spec.lean ====
/-
  What both programs compute, as functions of the argument arrays over the extended reals, index by index.
  With x taken as 4096 rows of 2048 entries, g and u as 8192 rows and d as 2048 rows of 8192:
      h[r, j] = silu(∑ₖ x[r, k] · g[j, k]) · (∑ₖ x[r, k] · u[j, k])        silu(a) = a · logistic(a)
      y[r, n] = ∑ⱼ h[r, j] · d[n, j]                                        (j over all 8192 columns)
  and the result is y with its 4096 rows read as 2 × 2048. The kernel takes the sum over j slab by slab, 8 slabs of 1024
  columns; column j of slab s is s · 1024 + k. Regrouping a finite sum needs only that addition on the extended reals
  is commutative and associative, so no finiteness is used.
-/
import Idealize.ShloMosaic.PureOps.Ideal
import Idealize.ShloMosaic.Lib.ValueIdx
import Mathlib.Algebra.BigOperators.Fin
import Mathlib.Logic.Equiv.Fin.Basic

noncomputable section

namespace Cert.Spec

open Idealize.ShloMosaic Idealize.ShloMosaic.ValueIdx

/-- x as launched: 2 × 2048 × 2048. -/
abbrev Sx3 : Shape := ⟨3, ![2, 2048, 2048]⟩
/-- x (and y) by rows: 4096 × 2048. -/
abbrev Sx : Shape := ⟨2, ![4096, 2048]⟩
/-- The gate and up weights: 8192 × 2048. -/
abbrev Sw : Shape := ⟨2, ![8192, 2048]⟩
/-- The down weights: 2048 × 8192. -/
abbrev Sd : Shape := ⟨2, ![2048, 8192]⟩
/-- h: 4096 × 8192. -/
abbrev Sh : Shape := ⟨2, ![4096, 8192]⟩

/-- silu(a) · b, with silu(a) = a · logistic(a). -/
def gated (a b : EReal) : EReal := (a * Ideal.logistic a) * b

/-- h at row `r`, column `j`. -/
def hAt (x : Sx.Idx → EReal) (g u : Sw.Idx → EReal) (r : Fin 4096) (j : Fin 8192) : EReal :=
  gated (∑ k : Fin 2048, x (ix2 r k) * g (ix2 j k)) (∑ k : Fin 2048, x (ix2 r k) * u (ix2 j k))

/-- h as an array. -/
def hArr (x : Sx.Idx → EReal) (g u : Sw.Idx → EReal) : Sh.Idx → EReal := fun i => hAt x g u (i 0) (i 1)

/-- y at row `r`, column `n`: ONE sum over all 8192 columns of h. -/
def yAt (h : Sh.Idx → EReal) (d : Sd.Idx → EReal) (r : Fin 4096) (n : Fin 2048) : EReal :=
  ∑ j : Fin 8192, h (ix2 r j) * d (ix2 n j)

/-- y as an array. -/
def yArr (h : Sh.Idx → EReal) (d : Sd.Idx → EReal) : Sx.Idx → EReal := fun i => yAt h d (i 0) (i 1)

/-- Column `k` of slab `s`. -/
def col (s : Fin 8) (k : Fin 1024) : Fin 8192 := ⟨s.val * 1024 + k.val, by omega⟩

/-- A sum over all 8192 columns, taken slab by slab. -/
theorem sum_slabs (f : Fin 8192 → EReal) : ∑ s : Fin 8, ∑ k : Fin 1024, f (col s k) = ∑ j : Fin 8192, f j := by
  rw [← Fintype.sum_prod_type' (f := fun s k => f (col s k))]
  refine Fintype.sum_equiv (finProdFinEquiv (m := 8) (n := 1024)) _ _ fun p => ?_
  congr 1
  exact Fin.ext (by simp [col, finProdFinEquiv]; omega)

/-- The 4096 rows of x: row `r` is batch `r / 2048`, position `r % 2048`. -/
def rows (x3 : Sx3.Idx → EReal) : Sx.Idx → EReal := fun i =>
  x3 (ix3 (⟨(i 0).val / 2048, by have h : (i 0).val < 4096 := (i 0).isLt; omega⟩ : Fin 2) (⟨(i 0).val % 2048, by omega⟩ : Fin 2048) (i 1))

/-- 4096 rows read back as 2 × 2048: entry (b, s) is row `b · 2048 + s`. -/
def unrows (y : Sx.Idx → EReal) : Sx3.Idx → EReal := fun i =>
  y (ix2 (⟨(i 0).val * 2048 + (i 1).val, by have h0 : (i 0).val < 2 := (i 0).isLt; have h1 : (i 1).val < 2048 := (i 1).isLt; omega⟩ : Fin 4096) (i 2))

/-- THE RESULT as one function of the four argument arrays. -/
def result (x3 : Sx3.Idx → EReal) (g u : Sw.Idx → EReal) (d : Sd.Idx → EReal) : Sx3.Idx → EReal :=
  unrows (yArr (hArr (rows x3) g u) d)

end Cert.Spec

end
-- ==== Proof.Join.lean ====
/-
  The kernel program's result, at the exact values, as one function of the four argument arrays. Walking the fold of
  buffer contents backwards from the end: the result buffer is the 4096 rows of y read as 2 × 2048; y is what the second
  kernel leaves, a function of h and d; h is what the first kernel leaves, a function of x by rows, g and u; x by rows is the
  first reshape of x; and g, u, d reach their kernels as launched, since nothing before writes them. Row r of the
  reshaped x is (r / 2048, r % 2048), and entry (b, s) of the reshaped y is row b · 2048 + s: row-major position is kept.
-/
import proofs.«158109_j78786880078282_1_alg».proof.Proof.FrameIdeal.Run
import proofs.«158109_j78786880078282_1_alg».proof.Proof.Spec
import Idealize.ShloMosaic.Lib.Pipeline.Value
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

/-- Reading 2 × 2048 × 2048 as 4096 rows: row r is (r / 2048, r % 2048). -/
theorem reshape_rows (x3 : S2x2048x2048.Idx → EReal) (h : S2x2048x2048.ShapeCasts S4096x2048) :
    shapeCast S4096x2048 x3 h = Cert.Spec.rows x3 := by
  funext i
  unfold Cert.Spec.rows
  refine shapeCast_apply x3 h i _ ?_
  rw [Shape.rowMajor_val_three, Shape.rowMajor_val_two]
  show ((i 0).val / 2048 * 2048 + (i 0).val % 2048) * 2048 + (i 1).val = (i 0).val * 2048 + (i 1).val
  have := Nat.div_add_mod' (i 0).val 2048
  omega

/-- Reading 4096 rows as 2 × 2048: entry (b, s) is row b · 2048 + s. -/
theorem reshape_unrows (y : S4096x2048.Idx → EReal) (h : S4096x2048.ShapeCasts S2x2048x2048) :
    shapeCast S2x2048x2048 y h = Cert.Spec.unrows y := by
  funext i
  unfold Cert.Spec.unrows
  refine shapeCast_apply y h i _ ?_
  rw [Shape.rowMajor_val_two, Shape.rowMajor_val_three]
  rfl

variable (m : (ℓ : Loc nD τ sig) → Buf (Elt Ideal) ℓ) (ρ : Dev nD → PrngReg)

/-- The first kernel is entered with x by rows, -/
theorem V1_main_v0 (c : Dev nD) : (V1 m ρ c main_v0 : S4096x2048.Idx → EReal) = Cert.Spec.rows (m ((c : Thread nD τ).loc main_arg0)) := by
  have e : (V1 m ρ c main_v0 : S4096x2048.Idx → EReal)
      = shapeCast S4096x2048 ((m ((c : Thread nD τ).loc main_arg0)) : S2x2048x2048.Idx → EReal) shapeCasts_S2x2048x2048_S4096x2048 := by
    show StableHlo.after hostOps0 (W0 m ρ c) (Proc.devRef .tc main_v0) = _
    after_results
    rfl
  rw [e, reshape_rows]
/-- and with the gate and up weights as launched. -/
theorem V1_main_arg1 (c : Dev nD) : V1 m ρ c main_arg1 = (m ((c : Thread nD τ).loc main_arg1)) :=
  StableHlo.after_of_writes_sub hostOps0 _ hostOps0_writes (by decide : main_arg1 ∉ hostOps0_W)
theorem V1_main_arg2 (c : Dev nD) : V1 m ρ c main_arg2 = (m ((c : Thread nD τ).loc main_arg2)) :=
  StableHlo.after_of_writes_sub hostOps0 _ hostOps0_writes (by decide : main_arg2 ∉ hostOps0_W)
/-- The second kernel is entered with the down weights as launched. -/
theorem V2_main_arg3 (c : Dev nD) : V2 m ρ c main_arg3 = (m ((c : Thread nD τ).loc main_arg3)) :=
  (W2_of_ne m ρ c main_arg3 (by decide)).trans
    (StableHlo.after_of_writes_sub hostOps0 _ hostOps0_writes (by decide : main_arg3 ∉ hostOps0_W))

section
variable (h0 : ∀ (V : (c : Dev nD) → (b : Ref sig .tc) → Buf (Elt Ideal) ((c : Thread nD τ).loc b)) (c : Dev nD),
    (dat0 (F := Ideal) V c).arrAt 3 cfg0.N = Cert.Spec.hArr (V c main_v0) (V c main_arg1) (V c main_arg2))
  (h1 : ∀ (V : (c : Dev nD) → (b : Ref sig .tc) → Buf (Elt Ideal) ((c : Thread nD τ).loc b)) (c : Dev nD),
    (dat1 (F := Ideal) V c).arrAt 2 cfg1.N = Cert.Spec.yArr (V c main_v1) (V c main_arg3))
include h0 h1

/-- At the end the result buffer holds `Cert.Spec.result` of the four arguments as launched. -/
theorem W4_main_v3 (c : Dev nD) :
    (W4 m ρ c (Proc.devRef .tc main_v3) : S2x2048x2048.Idx → EReal)
      = Cert.Spec.result (m ((c : Thread nD τ).loc main_arg0)) (m ((c : Thread nD τ).loc main_arg1)) (m ((c : Thread nD τ).loc main_arg2)) (m ((c : Thread nD τ).loc main_arg3)) := by
  have e4 : (W4 m ρ c (Proc.devRef .tc main_v3) : S2x2048x2048.Idx → EReal)
      = shapeCast S2x2048x2048 (W3 m ρ c (Proc.devRef .tc main_v2) : S4096x2048.Idx → EReal) shapeCasts_S4096x2048_S2x2048x2048 := by
    show StableHlo.after hostOps2 (W3 m ρ c) (Proc.devRef .tc main_v3) = _
    after_results
    rfl
  have e3 : (W3 m ρ c (Proc.devRef .tc main_v2) : S4096x2048.Idx → EReal)
      = Cert.Spec.yArr (V2 m ρ c main_v1) (V2 m ρ c main_arg3) := (W3_arr m ρ c 2).trans (h1 (V2 m ρ) c)
  have e2 : (V2 m ρ c main_v1 : S4096x8192.Idx → EReal)
      = Cert.Spec.hArr (V1 m ρ c main_v0) (V1 m ρ c main_arg1) (V1 m ρ c main_arg2) := (W2_arr m ρ c 3).trans (h0 (V1 m ρ) c)
  rw [e4, reshape_unrows, e3, e2, V2_main_arg3, V1_main_v0, V1_main_arg1, V1_main_arg2]
  rfl

/-- THE KERNEL'S VALUE RUN: every weakly fair execution of the idealized kernel program terminates with the result buffer
    at `Cert.Spec.result` of the arguments and every argument as launched. -/
theorem value_run : θ_run defs (onTc (τ := τ) (main (F := Ideal))) ⟨m, fun _ => 0, ρ⟩ (fun r => ∀ c : Dev nD,
      r.2.mem ((c.tc : Thread nD τ).loc main_v3) = Cert.Spec.result (m ((c : Thread nD τ).loc main_arg0)) (m ((c : Thread nD τ).loc main_arg1)) (m ((c : Thread nD τ).loc main_arg2)) (m ((c : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_v3 (by decide))).trans (W4_main_v3 m ρ h0 h1 c),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c)⟩) (run_all m ρ)

end

end Cert.KernelIdeal.Hand

end
-- ==== Proof.Value0.lean ====
/-
  The first kernel's output array after its run, at the exact values: block (a, b) of h — rows a · 512 …, columns
  b · 256 … — is what grid point (a, b) writes back, and that block is the restriction of ONE function of the entry
  arrays: h[r, j] = silu(∑ₖ x[r, k] · g[j, k]) · (∑ₖ x[r, k] · u[j, k]). The 8 × 32 blocks tile the 4096 × 8192 array.
-/
import proofs.«158109_j78786880078282_1_alg».proof.Proof.FrameIdeal.Body0
import proofs.«158109_j78786880078282_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

/-- Zero offsets on both axes, however spelt. -/
theorem zero_off : (![0, 0] : Fin 2 → Nat) = fun _ => 0 := funext fun a => by fin_cases a <;> rfl

/-! ## The products: a row of the x block against a row of a weight block

Both products contract axis 1 of the left block with axis 1 of the right: the left operand is read at (row of the
output entry, k), the right at (column of the output entry, k). -/

theorem lhs_rowdot_0 (i : S512x256.Idx) (q : dot_S512x2048_S256x2048_S512x256_1_1_0_0_n_n.contr.Idx) :
    (dot_S512x2048_S256x2048_S512x256_1_1_0_0_n_n.lhsIdx i q 0).val = (i 0).val := by
  unfold DotDims.lhsIdx
  rw [dif_neg (show ¬(0 : Fin S512x2048.rank) ∈ dot_S512x2048_S256x2048_S512x256_1_1_0_0_n_n.lhsBatch by decide), dif_pos (show (0 : Fin S512x2048.rank) ∈ dot_S512x2048_S256x2048_S512x256_1_1_0_0_n_n.lhsNonContracting by decide)]
  rfl
theorem lhs_rowdot_1 (i : S512x256.Idx) (q : dot_S512x2048_S256x2048_S512x256_1_1_0_0_n_n.contr.Idx) :
    (dot_S512x2048_S256x2048_S512x256_1_1_0_0_n_n.lhsIdx i q 1).val = (q ⟨0, by decide⟩).val :=
  dot_S512x2048_S256x2048_S512x256_1_1_0_0_n_n.lhsIdx_val_of_single rfl i q
theorem rhs_rowdot_0 (i : S512x256.Idx) (q : dot_S512x2048_S256x2048_S512x256_1_1_0_0_n_n.contr.Idx) :
    (dot_S512x2048_S256x2048_S512x256_1_1_0_0_n_n.rhsIdx i q 0).val = (i 1).val := by
  unfold DotDims.rhsIdx
  rw [dif_neg (show ¬(0 : Fin S256x2048.rank) ∈ dot_S512x2048_S256x2048_S512x256_1_1_0_0_n_n.rhsBatch by decide), dif_pos (show (0 : Fin S256x2048.rank) ∈ dot_S512x2048_S256x2048_S512x256_1_1_0_0_n_n.rhsNonContracting by decide)]
  rfl
theorem rhs_rowdot_1 (i : S512x256.Idx) (q : dot_S512x2048_S256x2048_S512x256_1_1_0_0_n_n.contr.Idx) :
    (dot_S512x2048_S256x2048_S512x256_1_1_0_0_n_n.rhsIdx i q 1).val = (q ⟨0, by decide⟩).val :=
  dot_S512x2048_S256x2048_S512x256_1_1_0_0_n_n.rhsIdx_val_of_single rfl i q

/-- A product into the zero accumulator, at entry (p, q): row p of the left block against row q of the right. -/
theorem rowdot_apply (a : FVec Ideal S512x2048 .bf16) (b : FVec Ideal S256x2048 .bf16) (p : Fin 512) (q : Fin 256) :
    matmul (F := Ideal) dot_S512x2048_S256x2048_S512x256_1_1_0_0_n_n none a b (constant S512x256 .f32 0x00000000#32) (ix2 p q)
      = ∑ k : Fin 2048, a (ix2 p k) * b (ix2 q k) := by
  simp only [matmul]
  rw [Ideal.matmul_constant_zero_apply, ← Equiv.sum_comp (contrEquiv1 dot_S512x2048_S256x2048_S512x256_1_1_0_0_n_n 2048 rfl rfl).symm]
  refine Finset.sum_congr rfl fun k _ => ?_
  have hk := contrEquiv1_symm_val dot_S512x2048_S256x2048_S512x256_1_1_0_0_n_n 2048 rfl rfl k
  have el : dot_S512x2048_S256x2048_S512x256_1_1_0_0_n_n.lhsIdx (ix2 p q) ((contrEquiv1 dot_S512x2048_S256x2048_S512x256_1_1_0_0_n_n 2048 rfl rfl).symm k) = ix2 p k := funext fun a => Fin.ext (by
    match a with
    | ⟨0, _⟩ => exact lhs_rowdot_0 _ _
    | ⟨1, _⟩ => exact (lhs_rowdot_1 _ _).trans hk)
  have er : dot_S512x2048_S256x2048_S512x256_1_1_0_0_n_n.rhsIdx (ix2 p q) ((contrEquiv1 dot_S512x2048_S256x2048_S512x256_1_1_0_0_n_n 2048 rfl rfl).symm k) = ix2 q k := funext fun a => Fin.ext (by
    match a with
    | ⟨0, _⟩ => exact rhs_rowdot_0 _ _
    | ⟨1, _⟩ => exact (rhs_rowdot_1 _ _).trans hk)
  rw [el, er]

/-! ## The body's stored value at an entry -/

/-- The logistic of a block, entry by entry. -/
theorem logistic_at {s : Shape} {φ : FTy} (a : FVec Ideal s φ) (i : s.Idx) : logistic a i = Ideal.logistic (a i) := rfl

/-- Entry (p, q) of what the body stores, from the three loaded blocks: the gate product through silu, times the up
    product. The changes of format are the identity on the exact values. -/
theorem stored_apply (v0 : Vec Ideal S512x2048 .f32) (v3 v5 : Vec Ideal S256x2048 .f32) (p : Fin 512) (q : Fin 256) :
    k0_pay1 (F := Ideal) v0 v3 v5 (ix2 p q)
      = Cert.Spec.gated (∑ k : Fin 2048, v0 (ix2 p k) * v3 (ix2 q k)) (∑ k : Fin 2048, v0 (ix2 p k) * v5 (ix2 q k)) := by
  unfold k0_pay1
  rw [truncf_apply, mulf_apply, mulf_apply, rowdot_apply, rowdot_apply]
  rw [logistic_at, rowdot_apply]
  simp only [truncf_apply, shapeCast_self]
  rfl

/-- The same over any blocks and arrays that agree along the rows the entry reads: if row (y 0) of the x block is row
    (i 0) of x, and row (y 1) of each weight block is row (i 1) of that weight, then entry y of what the body stores
    is h at i. -/
theorem stored_block (x0 : Vec Ideal S512x2048 .f32) (x1 x2 : Vec Ideal S256x2048 .f32)
    (X : Cert.Spec.Sx.Idx → EReal) (G U : Cert.Spec.Sw.Idx → EReal) (y : S512x256.Idx) (i : Cert.Spec.Sh.Idx)
    (h0 : ∀ k : Fin 2048, x0 (ix2 (y 0) k) = X (ix2 (i 0) k))
    (h1 : ∀ k : Fin 2048, x1 (ix2 (y 1) k) = G (ix2 (i 1) k))
    (h2 : ∀ k : Fin 2048, x2 (ix2 (y 1) k) = U (ix2 (i 1) k)) :
    k0_pay1 (F := Ideal) x0 x1 x2 y = Cert.Spec.hArr X G U i := by
  obtain ⟨p, q, rfl⟩ : ∃ (p : Fin 512) (q : Fin 256), y = ix2 p q := ⟨y 0, y 1, eq_ix2 y⟩
  rw [stored_apply]
  unfold Cert.Spec.hArr Cert.Spec.hAt
  simp only [h0, h1, h2]

/-! ## What a grid point writes back -/

/-- The blocks' index maps over the grid: the x block moves with the output block's row, each weight block with its
    column, and none moves along the contracted axis; the output block of point t is (t / 32, t % 32). -/
theorem index_facts : ∀ t : Fin cfg0.N,
    win0_0.index t (0 : Fin 2) = win0_3.index t (0 : Fin 2) ∧ win0_0.index t (1 : Fin 2) = 0
    ∧ win0_1.index t (0 : Fin 2) = win0_3.index t (1 : Fin 2) ∧ win0_1.index t (1 : Fin 2) = 0
    ∧ win0_2.index t (0 : Fin 2) = win0_3.index t (1 : Fin 2) ∧ win0_2.index t (1 : Fin 2) = 0
    ∧ win0_3.index t (0 : Fin 2) = t.val / 32 ∧ win0_3.index t (1 : Fin 2) = t.val % 32 :=
  (by decide +kernel : ∀ t : Fin grid0.N, _)

section Entry
variable (V : (c : Dev nD) → (b : Ref sig .tc) → Buf (Elt Ideal) ((c : Thread nD τ).loc b))

/-- Point `t` writes back block `t` of h. -/
theorem flushed0_eq (c : Dev nD) (t : Fin cfg0.N) :
    (dat0 (F := Ideal) V c).flushed 3 t
      = ((cfg0.win 3).blk t).view.read (Elt Ideal) (Cert.Spec.hArr (V c main_v0) (V c main_arg1) (V c main_arg2)) := by
  show (cfg0.win 3).cut (grid0.coords t) ((dat0 V c).after 3 t) = _
  rw [after0_3]
  unfold out0_3
  rw [View.canon_unit_zero zero_off]
  simp only [View.ld_unit_zero (S := S512x2048) zero_off, View.ld_unit_zero (S := S256x2048) zero_off]
  obtain ⟨e00, e01, e10, e11, e20, e21, -, -⟩ := index_facts t
  funext j
  show k0_pay1 (iblk0 V c 0 t) (iblk0 V c 1 t) (iblk0 V c 2 t) ((win0 3).xinj (grid0.coords t) j)
    = Cert.Spec.hArr (V c main_v0) (V c main_arg1) (V c main_arg2) (((cfg0.win 3).blk t).view.emb j)
  refine stored_block (iblk0 V c 0 t) (iblk0 V c 1 t) (iblk0 V c 2 t) (V c main_v0) (V c main_arg1) (V c main_arg2) _ _
    (fun k => ?_) (fun k => ?_) (fun k => ?_)
  · show V c main_v0 (((cfg0.win 0).blk t).view.emb (ix2 ((win0 3).xinj (grid0.coords t) j 0) k)) = _
    refine congrArg (V c main_v0) (funext fun a => Fin.ext ?_)
    match a with
    | ⟨0, _⟩ => show win0_0.index t (0 : Fin 2) * 512 + 1 * (j 0).val = win0_3.index t (0 : Fin 2) * 512 + 1 * (j 0).val; omega
    | ⟨1, _⟩ => show win0_0.index t (1 : Fin 2) * 2048 + 1 * k.val = k.val; omega
  · show V c main_arg1 (((cfg0.win 1).blk t).view.emb (ix2 ((win0 3).xinj (grid0.coords t) j 1) k)) = _
    refine congrArg (V c main_arg1) (funext fun a => Fin.ext ?_)
    match a with
    | ⟨0, _⟩ => show win0_1.index t (0 : Fin 2) * 256 + 1 * (j 1).val = win0_3.index t (1 : Fin 2) * 256 + 1 * (j 1).val; omega
    | ⟨1, _⟩ => show win0_1.index t (1 : Fin 2) * 2048 + 1 * k.val = k.val; omega
  · show V c main_arg2 (((cfg0.win 2).blk t).view.emb (ix2 ((win0 3).xinj (grid0.coords t) j 1) k)) = _
    refine congrArg (V c main_arg2) (funext fun a => Fin.ext ?_)
    match a with
    | ⟨0, _⟩ => show win0_2.index t (0 : Fin 2) * 256 + 1 * (j 1).val = win0_3.index t (1 : Fin 2) * 256 + 1 * (j 1).val; omega
    | ⟨1, _⟩ => show win0_2.index t (1 : Fin 2) * 2048 + 1 * k.val = k.val; omega

end Entry

/-! ## The blocks tile the array -/

/-- An entry of h is in point `t`'s block iff each coordinate is in the block's range on its axis. -/
theorem mem_block (t : Fin cfg0.N) (i : S4096x8192.Idx) :
    i ∈ ((cfg0.win 3).blk t).view.set
      ↔ ∀ a : Fin 2, win0_3.index t a * S512x256.size a ≤ (i a).val ∧ (i a).val < win0_3.index t a * S512x256.size a + S512x256.size a := by
  show i ∈ ((View.whole main_v1).slice (win0_3.rect t)).set ↔ _
  rw [View.set_slice_whole, Rect.mem_set_unit]
  exact Iff.rfl

/-- Entry (r, j) of h lies in the block of the point (r / 512, j / 256), which is point (r / 512) · 32 + j / 256 of the
    grid, and every point writes its block back. -/
theorem covered (i : S4096x8192.Idx) :
    ∃ t : Fin cfg0.N, (cfg0.win 3).flush t = true ∧ i ∈ ((cfg0.win 3).blk t).view.set := by
  have hi0 : (i 0).val < 4096 := (i 0).isLt
  have hi1 : (i 1).val < 8192 := (i 1).isLt
  have hN : cfg0.N = 256 := by decide
  obtain ⟨t, ht⟩ : ∃ t : Fin cfg0.N, t.val = (i 0).val / 512 * 32 + (i 1).val / 256 := ⟨⟨_, by rw [hN]; omega⟩, rfl⟩
  obtain ⟨-, -, -, -, -, -, o0, o1⟩ := index_facts t
  refine ⟨t, flush0_3 t, ?_⟩
  rw [mem_block]
  intro a
  match a with
  | ⟨0, _⟩ =>
    show win0_3.index t (0 : Fin 2) * 512 ≤ (i 0).val ∧ (i 0).val < win0_3.index t (0 : Fin 2) * 512 + 512
    omega
  | ⟨1, _⟩ =>
    show win0_3.index t (1 : Fin 2) * 256 ≤ (i 1).val ∧ (i 1).val < win0_3.index t (1 : Fin 2) * 256 + 256
    omega

/-- After the first kernel's run its output array is h of the arrays it was entered with. -/
theorem arr0_eq (V : (c : Dev nD) → (b : Ref sig .tc) → Buf (Elt Ideal) ((c : Thread nD τ).loc b)) (c : Dev nD) :
    (dat0 (F := Ideal) V c).arrAt 3 cfg0.N = Cert.Spec.hArr (V c main_v0) (V c main_arg1) (V c main_arg2) :=
  (dat0 (F := Ideal) V c).arrAt_eq_of_cover 3 (Cert.Spec.hArr (V c main_v0) (V c main_arg1) (V c main_arg2))
    (fun t _ => flushed0_eq V c t) covered

end Cert.KernelIdeal.Hand

end
-- ==== Proof.Cover1.lean ====
/-
  The second kernel's output blocks tile its array. The output window's block at grid point (a, b, s) is rows
  a · 512 … a · 512 + 511 and columns b · 1024 … b · 1024 + 1023 of the 4096 × 2048 array y, and it is written back at the
  last slab, s = 7. So entry (r, n) lies in the block written back at the point (r / 512, n / 1024, 7), and an array whose
  every written-back block is the restriction of ONE function ends holding that function.
-/
import proofs.«158109_j78786880078282_1_alg».proof.Proof.FrameIdeal.Shared
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe
open Idealize.SL Idealize.SL.Sem
open Idealize.ShloMosaic.Pipeline (Dat Cfg Window)

variable {F : FTy → Type} [FloatOps F]

/-- An entry of y is in point `t`'s output block iff each coordinate is in the block's range on its axis. -/
theorem mem_blk1_2 (t : Fin cfg1.N) (i : S4096x2048.Idx) :
    i ∈ ((cfg1.win 2).blk t).view.set ↔ ∀ a : Fin 2, win1_2.index t a * S512x1024.size a ≤ (i a).val ∧ (i a).val < win1_2.index t a * S512x1024.size a + S512x1024.size a := by
  show i ∈ ((View.whole main_v2).slice (win1_2.rect t)).set ↔ _
  rw [View.set_slice_whole, Rect.mem_set_unit]
  exact Iff.rfl

/-- Every block of the 8 × 2 tiling is the output block of some point that writes it back. -/
theorem idx_onto1_2 : ∀ (q0 : Fin 8) (q1 : Fin 2), ∃ t : Fin cfg1.N, (cfg1.win 2).flush t = true ∧ win1_2.index t = ![q0.val, q1.val] :=
  (by decide +kernel : ∀ (q0 : Fin 8) (q1 : Fin 2), ∃ t : Fin grid1.N, win1_2.flush t = true ∧ win1_2.index t = ![q0.val, q1.val])

/-- Every entry of y is in a block some point writes back. -/
theorem cover1_2 (i : S4096x2048.Idx) : ∃ t : Fin cfg1.N, (cfg1.win 2).flush t = true ∧ i ∈ ((cfg1.win 2).blk t).view.set := by
  have hi0 : (i 0).val < 4096 := (i 0).isLt
  have hi1 : (i 1).val < 2048 := (i 1).isLt
  obtain ⟨t, hf, ht⟩ := idx_onto1_2 ⟨(i 0).val / 512, by omega⟩ ⟨(i 1).val / 1024, by omega⟩
  have q0 : win1_2.index t (0 : Fin 2) = (i 0).val / 512 := congrFun ht 0
  have q1 : win1_2.index t (1 : Fin 2) = (i 1).val / 1024 := congrFun ht 1
  refine ⟨t, hf, ?_⟩
  rw [mem_blk1_2]
  intro a
  match a with
  | ⟨0, _⟩ => show win1_2.index t (0 : Fin 2) * 512 ≤ (i 0).val ∧ (i 0).val < win1_2.index t (0 : Fin 2) * 512 + 512; omega
  | ⟨1, _⟩ => show win1_2.index t (1 : Fin 2) * 1024 ≤ (i 1).val ∧ (i 1).val < win1_2.index t (1 : Fin 2) * 1024 + 1024; omega

/-- If every point that writes its output block back writes the restriction of ONE function `G` to that block, the
    array ends holding `G`. -/
theorem arr1_of_flushed {c : Dev nD} (dat : Dat τ (Elt F) Unit ℕ (UR sig nD τ) ℕ cfg1 c) (G : S4096x2048.Idx → Elt F .f32)
    (hG : ∀ t : Fin cfg1.N, (cfg1.win 2).flush t = true → dat.flushed 2 t = ((cfg1.win 2).blk t).view.read (Elt F) G) :
    dat.arrAt 2 cfg1.N = G :=
  dat.arrAt_eq_of_cover 2 G hG cover1_2

end Cert.KernelIdeal.Hand

end
-- ==== Proof.Value1.lean ====
/-
  The second kernel's output array after its run, at the exact values. Grid point (a, b, s) adds to the accumulator the
  partial product of slab s: rows a · 512 … of h against rows b · 1024 … of d over columns s · 1024 … . After slab s the
  accumulator holds the sum of the partial products of slabs 0 … s (from zero), so at s = 7 the block written back is
  y[r, n] = ∑ⱼ h[r, j] · d[n, j] over all 8192 columns, restricted to the block; the 8 × 2 blocks tile the array.
-/
import proofs.«158109_j78786880078282_1_alg».proof.Proof.FrameIdeal.Body1
import proofs.«158109_j78786880078282_1_alg».proof.Proof.Spec
import proofs.«158109_j78786880078282_1_alg».proof.Proof.Cover1
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

/-! ## What each case's stores leave, as the body's arithmetic on the blocks -/

section Pieces
variable {F : FTy → Type} [FloatOps F]

/-- The zero offsets of a whole-buffer load or store. -/
theorem hz2 : (![0, 0] : Fin 2 → Nat) = fun _ => 0 := funext fun a => by fin_cases a <;> rfl

/-- FIRST slab: the accumulator is zeroed, read back, and left at zero plus the slab's partial product. -/
theorem acc_A (c : Dev nD) (i : grid1.Coords) (arg3 : Memref sig .tc .vmem S512x1024 .bf16) (harg3 : arg3.IsWhole) (arg4 : Memref sig .tc .vmem S1024x1024 .f32) (harg4 : arg4.IsWhole) (arg5 : Memref sig .tc .vmem S512x1024 .f32) (harg5 : arg5.IsWhole) (arg6 : Memref sig .tc .vmem S512x1024 .f32) (harg6 : arg6.IsWhole) (hc0 : cond1_0 i) (hc1 : ¬cond1_1 i) (x0 : Vec F S512x1024 .bf16) (x1 : Vec F S1024x1024 .f32) :
    sout1_A_0 c i arg3 harg3 arg4 harg4 arg5 harg5 arg6 harg6 hc0 hc1 x0 x1 = k1_pay2 x0 x1 (k1_pay1 (F := F)) := by
  unfold sout1_A_0
  rw [View.read_writes_eq_canon _ _ _ (scover1_A_0 c i arg3 harg3 arg4 harg4 arg5 harg5 arg6 harg6 hc0 hc1 x0 x1)]
  unfold kernelRun1_A
  dsimp only
  sl_unfold_words
  rw [View.canon_cons_unit_zero (S := S512x1024) hz2]
  simp only [View.readAt_eq_ld, harg3.read_unread, harg4.read_unread, View.ld_unit_zero (S := S512x1024) hz2, View.ld_unit_zero (S := S1024x1024) hz2, View.readCov_unit_zero (S := S512x1024) _ hz2]

/-- MIDDLE slab: the accumulator is left at what it held plus the slab's partial product. -/
theorem acc_B (c : Dev nD) (i : grid1.Coords) (arg3 : Memref sig .tc .vmem S512x1024 .bf16) (harg3 : arg3.IsWhole) (arg4 : Memref sig .tc .vmem S1024x1024 .f32) (harg4 : arg4.IsWhole) (arg5 : Memref sig .tc .vmem S512x1024 .f32) (harg5 : arg5.IsWhole) (arg6 : Memref sig .tc .vmem S512x1024 .f32) (harg6 : arg6.IsWhole) (hc0 : ¬cond1_0 i) (hc1 : ¬cond1_1 i) (x0 : Vec F S512x1024 .bf16) (x1 : Vec F S1024x1024 .f32) (xs0 : Vec F S512x1024 .f32) :
    sout1_B_0 c i arg3 harg3 arg4 harg4 arg5 harg5 arg6 harg6 hc0 hc1 x0 x1 xs0 = k1_pay2 x0 x1 xs0 := by
  unfold sout1_B_0
  rw [View.read_writes_eq_canon _ _ _ (scover1_B_0 c i arg3 harg3 arg4 harg4 arg5 harg5 arg6 harg6 hc0 hc1 x0 x1 xs0)]
  unfold kernelRun1_B
  dsimp only
  sl_unfold_words
  rw [View.canon_unit_zero hz2]
  simp only [View.readAt_eq_ld, harg3.read_unread, harg4.read_unread, harg6.read_unread, View.ld_unit_zero (S := S512x1024) hz2, View.ld_unit_zero (S := S1024x1024) hz2]

/-- LAST slab: the accumulator likewise, -/
theorem acc_C (c : Dev nD) (i : grid1.Coords) (arg3 : Memref sig .tc .vmem S512x1024 .bf16) (harg3 : arg3.IsWhole) (arg4 : Memref sig .tc .vmem S1024x1024 .f32) (harg4 : arg4.IsWhole) (arg5 : Memref sig .tc .vmem S512x1024 .f32) (harg5 : arg5.IsWhole) (arg6 : Memref sig .tc .vmem S512x1024 .f32) (harg6 : arg6.IsWhole) (hc0 : ¬cond1_0 i) (hc1 : cond1_1 i) (x0 : Vec F S512x1024 .bf16) (x1 : Vec F S1024x1024 .f32) (xs0 : Vec F S512x1024 .f32) :
    sout1_C_0 c i arg3 harg3 arg4 harg4 arg5 harg5 arg6 harg6 hc0 hc1 x0 x1 xs0 = k1_pay2 x0 x1 xs0 := by
  unfold sout1_C_0
  rw [View.read_writes_eq_canon _ _ _ (scover1_C_0 c i arg3 harg3 arg4 harg4 arg5 harg5 arg6 harg6 hc0 hc1 x0 x1 xs0)]
  unfold kernelRun1_C
  dsimp only
  sl_unfold_words
  rw [View.canon_unit_zero hz2]
  simp only [View.readAt_eq_ld, harg3.read_unread, harg4.read_unread, harg6.read_unread, View.ld_unit_zero (S := S512x1024) hz2, View.ld_unit_zero (S := S1024x1024) hz2]

/-- and the output block receives a copy of it. -/
theorem out_C (c : Dev nD) (i : grid1.Coords) (arg3 : Memref sig .tc .vmem S512x1024 .bf16) (harg3 : arg3.IsWhole) (arg4 : Memref sig .tc .vmem S1024x1024 .f32) (harg4 : arg4.IsWhole) (arg5 : Memref sig .tc .vmem S512x1024 .f32) (harg5 : arg5.IsWhole) (arg6 : Memref sig .tc .vmem S512x1024 .f32) (harg6 : arg6.IsWhole) (hc0 : ¬cond1_0 i) (hc1 : cond1_1 i) (x0 : Vec F S512x1024 .bf16) (x1 : Vec F S1024x1024 .f32) (xs0 : Vec F S512x1024 .f32) :
    out1_C_2 c i arg3 harg3 arg4 harg4 arg5 harg5 arg6 harg6 hc0 hc1 x0 x1 xs0 = k1_pay2 x0 x1 xs0 := by
  unfold out1_C_2
  rw [View.read_writes_eq_canon _ _ _ (cover1_C_2 c i arg3 harg3 arg4 harg4 arg5 harg5 arg6 harg6 hc0 hc1 x0 x1 xs0)]
  unfold kernelRun1_C
  dsimp only
  sl_unfold_words
  rw [View.canon_unit_zero hz2]
  simp only [View.readAt_eq_ld, harg3.read_unread, harg4.read_unread, harg6.read_unread, View.ld_unit_zero (S := S512x1024) hz2, View.ld_unit_zero (S := S1024x1024) hz2, View.readCov_unit_zero (S := S512x1024) _ hz2]

end Pieces

/-! ## The body's arithmetic at an index, over the extended reals -/

section Payload

/-- The block product's left operand at output (r, n), contraction index q: row r … -/
theorem lhsK_0 (i : S512x1024.Idx) (q : dot_S512x1024_S1024x1024_S512x1024_1_1_0_0_n_n.contr.Idx) :
    (dot_S512x1024_S1024x1024_S512x1024_1_1_0_0_n_n.lhsIdx i q 0).val = (i 0).val := by
  unfold DotDims.lhsIdx
  rw [dif_neg (show ¬(0 : Fin S512x1024.rank) ∈ dot_S512x1024_S1024x1024_S512x1024_1_1_0_0_n_n.lhsBatch by decide), dif_pos (show (0 : Fin S512x1024.rank) ∈ dot_S512x1024_S1024x1024_S512x1024_1_1_0_0_n_n.lhsNonContracting by decide)]
  rfl
/-- … column q; -/
theorem lhsK_1 (i : S512x1024.Idx) (q : dot_S512x1024_S1024x1024_S512x1024_1_1_0_0_n_n.contr.Idx) :
    (dot_S512x1024_S1024x1024_S512x1024_1_1_0_0_n_n.lhsIdx i q 1).val = (q ⟨0, by decide⟩).val :=
  dot_S512x1024_S1024x1024_S512x1024_1_1_0_0_n_n.lhsIdx_val_of_single rfl i q
/-- the right operand's: row n … -/
theorem rhsK_0 (i : S512x1024.Idx) (q : dot_S512x1024_S1024x1024_S512x1024_1_1_0_0_n_n.contr.Idx) :
    (dot_S512x1024_S1024x1024_S512x1024_1_1_0_0_n_n.rhsIdx i q 0).val = (i 1).val := by
  unfold DotDims.rhsIdx
  rw [dif_neg (show ¬(0 : Fin S1024x1024.rank) ∈ dot_S512x1024_S1024x1024_S512x1024_1_1_0_0_n_n.rhsBatch by decide), dif_pos (show (0 : Fin S1024x1024.rank) ∈ dot_S512x1024_S1024x1024_S512x1024_1_1_0_0_n_n.rhsNonContracting by decide)]
  rfl
/-- … column q. -/
theorem rhsK_1 (i : S512x1024.Idx) (q : dot_S512x1024_S1024x1024_S512x1024_1_1_0_0_n_n.contr.Idx) :
    (dot_S512x1024_S1024x1024_S512x1024_1_1_0_0_n_n.rhsIdx i q 1).val = (q ⟨0, by decide⟩).val :=
  dot_S512x1024_S1024x1024_S512x1024_1_1_0_0_n_n.rhsIdx_val_of_single rfl i q

/-- The block product into the zero accumulator, at (r, n): the sum over the 1024 columns k of the slab of
    (left block)[r, k] · (right block)[n, k]. -/
theorem blockDot_apply (L : S512x1024.Idx → EReal) (R : S1024x1024.Idx → EReal) (r : Fin 512) (n : Fin 1024) :
    FloatOps.matmul (F := Ideal) (φ₁ := .bf16) (φ₂ := .bf16) dot_S512x1024_S1024x1024_S512x1024_1_1_0_0_n_n none L R (constant S512x1024 .f32 0x00000000#32) (ix2 r n)
      = ∑ k : Fin 1024, L (ix2 r k) * R (ix2 n k) := by
  rw [Ideal.matmul_constant_zero_apply, ← Equiv.sum_comp (ValueIdx.contrEquiv1 dot_S512x1024_S1024x1024_S512x1024_1_1_0_0_n_n 1024 rfl rfl).symm]
  refine Finset.sum_congr rfl fun k _ => ?_
  have hk := ValueIdx.contrEquiv1_symm_val dot_S512x1024_S1024x1024_S512x1024_1_1_0_0_n_n 1024 rfl rfl k
  have el : dot_S512x1024_S1024x1024_S512x1024_1_1_0_0_n_n.lhsIdx (ix2 r n) ((ValueIdx.contrEquiv1 dot_S512x1024_S1024x1024_S512x1024_1_1_0_0_n_n 1024 rfl rfl).symm k) = ix2 r k := funext fun a => Fin.ext (by
    match a with
    | ⟨0, _⟩ => exact lhsK_0 _ _
    | ⟨1, _⟩ => exact (lhsK_1 _ _).trans hk)
  have er : dot_S512x1024_S1024x1024_S512x1024_1_1_0_0_n_n.rhsIdx (ix2 r n) ((ValueIdx.contrEquiv1 dot_S512x1024_S1024x1024_S512x1024_1_1_0_0_n_n 1024 rfl rfl).symm k) = ix2 n k := funext fun a => Fin.ext (by
    match a with
    | ⟨0, _⟩ => exact rhsK_0 _ _
    | ⟨1, _⟩ => exact (rhsK_1 _ _).trans hk)
  rw [el, er]

/-- The update's payload at (r, n): what the accumulator held there plus the slab's partial product. -/
theorem pay2_apply (L : S512x1024.Idx → EReal) (R : S1024x1024.Idx → EReal) (acc : S512x1024.Idx → EReal) (r : Fin 512) (n : Fin 1024) :
    k1_pay2 (F := Ideal) L R acc (ix2 r n) = acc (ix2 r n) + ∑ k : Fin 1024, L (ix2 r k) * R (ix2 n k) := by
  unfold k1_pay2
  simp only [shapeCast_self]
  refine (addf_apply _ _ _).trans ?_
  exact congrArg (acc (ix2 r n) + ·) (blockDot_apply L R r n)

/-- The reset's payload is zero everywhere. -/
theorem pay1_apply (j : S512x1024.Idx) : k1_pay1 (F := Ideal) j = 0 := by
  unfold k1_pay1
  simp only [shapeCast_self]
  exact Ideal.ofBits_zero_f32

end Payload

/-! ## The blocks a point works on, read off the arrays -/

section Reads
variable (V : (c : Dev nD) → (b : Ref sig .tc) → Buf (Elt Ideal) ((c : Thread nD τ).loc b))

/-- h as the second kernel finds it: 4096 × 8192. -/
abbrev hArr (c : Dev nD) : S4096x8192.Idx → EReal := V c main_v1
/-- d as the second kernel finds it: 2048 × 8192. -/
abbrev dArr (c : Dev nD) : S2048x8192.Idx → EReal := V c main_arg3
/-- The 512 × 1024 block of h at point `t`. -/
abbrev hBlk (c : Dev nD) (t : Fin cfg1.N) : S512x1024.Idx → EReal := iblk1 V c 0 t
/-- The 1024 × 1024 block of d at point `t`. -/
abbrev dBlk (c : Dev nD) (t : Fin cfg1.N) : S1024x1024.Idx → EReal := iblk1 V c 1 t

/-- The three windows' block indices at point t = a · 16 + b · 8 + s: (a, s) for h, (b, s) for d, (a, b) for y. -/
theorem idx1_facts : ∀ t : Fin cfg1.N,
    win1_0.index t (0 : Fin 2) = t.val / 16 ∧ win1_0.index t (1 : Fin 2) = t.val % 8
    ∧ win1_1.index t (0 : Fin 2) = t.val / 8 % 2 ∧ win1_1.index t (1 : Fin 2) = t.val % 8
    ∧ win1_2.index t (0 : Fin 2) = t.val / 16 ∧ win1_2.index t (1 : Fin 2) = t.val / 8 % 2 :=
  (by decide +kernel : ∀ t : Fin grid1.N, _)

/-- Entry (r, k) of the h block at point t is h at row (t / 16) · 512 + r, column (t mod 8) · 1024 + k. -/
theorem hBlk_apply (c : Dev nD) (t : Fin cfg1.N) (r : Fin 512) (k : Fin 1024) (ρ : Fin 4096) (j : Fin 8192)
    (hρ : ρ.val = t.val / 16 * 512 + r.val) (hj : j.val = t.val % 8 * 1024 + k.val) :
    hBlk V c t (ix2 r k) = hArr V c (ix2 ρ j) := by
  obtain ⟨e0, e1, -⟩ := idx1_facts t
  show V c main_v1 (((cfg1.win 0).blk t).view.emb (ix2 r k)) = V c main_v1 (ix2 ρ j)
  refine congrArg _ (funext fun a => Fin.ext ?_)
  match a with
  | ⟨0, _⟩ => show win1_0.index t (0 : Fin 2) * 512 + 1 * r.val = ρ.val; rw [e0, hρ]; omega
  | ⟨1, _⟩ => show win1_0.index t (1 : Fin 2) * 1024 + 1 * k.val = j.val; rw [e1, hj]; omega

/-- Entry (q, k) of the d block at point t is d at row (t / 8 mod 2) · 1024 + q, column (t mod 8) · 1024 + k. -/
theorem dBlk_apply (c : Dev nD) (t : Fin cfg1.N) (q : Fin 1024) (k : Fin 1024) (ν : Fin 2048) (j : Fin 8192)
    (hν : ν.val = t.val / 8 % 2 * 1024 + q.val) (hj : j.val = t.val % 8 * 1024 + k.val) :
    dBlk V c t (ix2 q k) = dArr V c (ix2 ν j) := by
  obtain ⟨-, -, e2, e3, -⟩ := idx1_facts t
  show V c main_arg3 (((cfg1.win 1).blk t).view.emb (ix2 q k)) = V c main_arg3 (ix2 ν j)
  refine congrArg _ (funext fun a => Fin.ext ?_)
  match a with
  | ⟨0, _⟩ => show win1_1.index t (0 : Fin 2) * 1024 + 1 * q.val = ν.val; rw [e2, hν]; omega
  | ⟨1, _⟩ => show win1_1.index t (1 : Fin 2) * 1024 + 1 * k.val = j.val; rw [e3, hj]; omega

end Reads

/-! ## The accumulator after each point -/

section Accumulation
variable (V : (c : Dev nD) → (b : Ref sig .tc) → Buf (Elt Ideal) ((c : Thread nD τ).loc b))

/-- The row of h that row `r` of the block at position `n` is. -/
def hrow (n : ℕ) (r : Fin 512) : Fin 4096 := ⟨n / 16 % 8 * 512 + r.val, by have := r.isLt; omega⟩
/-- The row of d that row `q` of the block at position `n` is. -/
def drow (n : ℕ) (q : Fin 1024) : Fin 2048 := ⟨n / 8 % 2 * 1024 + q.val, by have := q.isLt; omega⟩
/-- Column `k` of slab `s` (the slab index read modulo 8). -/
def scol (s : ℕ) (k : Fin 1024) : Fin 8192 := ⟨s % 8 * 1024 + k.val, by have := k.isLt; omega⟩

/-- Slab `s`'s partial product of row `ρ` of h against row `ν` of d. -/
def slabDot (H : S4096x8192.Idx → EReal) (D : S2048x8192.Idx → EReal) (ρ : Fin 4096) (ν : Fin 2048) (s : ℕ) : EReal :=
  ∑ k : Fin 1024, H (ix2 ρ (scol s k)) * D (ix2 ν (scol s k))

/-- The product of the two blocks at point t, at (r, q), is the partial product of slab t mod 8. -/
theorem slab_eq (c : Dev nD) (t : Fin cfg1.N) (r : Fin 512) (q : Fin 1024) :
    ∑ k : Fin 1024, hBlk V c t (ix2 r k) * dBlk V c t (ix2 q k)
      = slabDot (hArr V c) (dArr V c) (hrow t.val r) (drow t.val q) (t.val % 8) := by
  have hN : t.val < 128 := lt_of_lt_of_eq t.isLt N_1
  unfold slabDot
  refine Finset.sum_congr rfl fun k _ => ?_
  rw [hBlk_apply V c t r k (hrow t.val r) (scol (t.val % 8) k) (by show t.val / 16 % 8 * 512 + r.val = _; omega) (by show t.val % 8 % 8 * 1024 + k.val = _; omega),
    dBlk_apply V c t q k (drow t.val q) (scol (t.val % 8) k) (by show t.val / 8 % 2 * 1024 + q.val = _; omega) (by show t.val % 8 % 8 * 1024 + k.val = _; omega)]

/-- At a point of the first slab the accumulator is left at that slab's partial product. -/
theorem acc_first (c : Dev nD) (t : Fin cfg1.N) (h0 : t.val % 8 = 0) (r : Fin 512) (q : Fin 1024) :
    (outsAt1 V c t.val t.isLt).2 (ix2 r q) = slabDot (hArr V c) (dArr V c) (hrow t.val r) (drow t.val q) (t.val % 8) := by
  have h1 : ¬t.val % 8 = 7 := by omega
  rw [outsAt1_A V c t h0 h1]
  dsimp only
  refine (congrFun (acc_A (F := Ideal) c (grid1.coords t) (ms1_0 t) (hs1_0 t) (ms1_1 t) (hs1_1 t) (ms1_2 t) (hs1_2 t) scM1_0 (Memref.isWhole_whole _) ((hcond1_0 t).mpr h0) (fun h => h1 ((hcond1_1 t).mp h)) (iblk1 V c 0 t) (iblk1 V c 1 t)) (ix2 r q)).trans ?_
  refine (pay2_apply (hBlk V c t) (dBlk V c t) (k1_pay1 (F := Ideal)) r q).trans ?_
  rw [pay1_apply, zero_add]
  exact slab_eq V c t r q

/-- At a later slab it is left at what the point before left plus that slab's partial product. -/
theorem acc_next (c : Dev nD) (t : Fin cfg1.N) (h0 : ¬t.val % 8 = 0) (r : Fin 512) (q : Fin 1024) :
    (outsAt1 V c t.val t.isLt).2 (ix2 r q)
      = (outsAt1 V c (t.val - 1) (Nat.lt_of_le_of_lt (Nat.sub_le _ _) t.isLt)).2 (ix2 r q)
        + slabDot (hArr V c) (dArr V c) (hrow t.val r) (drow t.val q) (t.val % 8) := by
  by_cases h1 : t.val % 8 = 7
  · rw [outsAt1_C V c t h0 h1]
    dsimp only
    refine (congrFun (acc_C (F := Ideal) c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2) (ix2 r q)).trans ?_
    refine (pay2_apply (hBlk V c t) (dBlk V c t) (outsAt1 V c (t.val - 1) (Nat.lt_of_le_of_lt (Nat.sub_le _ _) t.isLt)).2 r q).trans ?_
    exact congrArg (_ + ·) (slab_eq V c t r q)
  · rw [outsAt1_B V c t h0 h1]
    dsimp only
    refine (congrFun (acc_B (F := Ideal) c (grid1.coords t) (ms1_0 t) (hs1_0 t) (ms1_1 t) (hs1_1 t) (ms1_2 t) (hs1_2 t) scM1_0 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2) (ix2 r q)).trans ?_
    refine (pay2_apply (hBlk V c t) (dBlk V c t) (outsAt1 V c (t.val - 1) (Nat.lt_of_le_of_lt (Nat.sub_le _ _) t.isLt)).2 r q).trans ?_
    exact congrArg (_ + ·) (slab_eq V c t r q)

/-- THE INVARIANT: after position n the accumulator holds the sum of the partial products of slabs 0 … n mod 8 of the
    block row and block column the position works on. -/
theorem acc_eq (c : Dev nD) : ∀ (n : ℕ) (hn : n < cfg1.N) (r : Fin 512) (q : Fin 1024),
    (outsAt1 V c n hn).2 (ix2 r q)
      = ∑ s ∈ Finset.range (n % 8 + 1), slabDot (hArr V c) (dArr V c) (hrow n r) (drow n q) s := by
  intro n
  induction n with
  | zero =>
    intro hn r q
    rw [show (0 : ℕ) % 8 + 1 = 1 from rfl, Finset.sum_range_one]
    exact acc_first V c ⟨0, hn⟩ rfl r q
  | succ m ih =>
    intro hn r q
    by_cases h0 : (m + 1) % 8 = 0
    · rw [h0, zero_add, Finset.sum_range_one]
      refine (acc_first V c ⟨m + 1, hn⟩ h0 r q).trans ?_
      show slabDot _ _ _ _ ((m + 1) % 8) = _
      rw [h0]
    · refine (acc_next V c ⟨m + 1, hn⟩ h0 r q).trans ?_
      show (outsAt1 V c m (Nat.lt_of_succ_lt hn)).2 (ix2 r q) + slabDot (hArr V c) (dArr V c) (hrow (m + 1) r) (drow (m + 1) q) ((m + 1) % 8) = _
      rw [ih (Nat.lt_of_succ_lt hn) r q, show (m + 1) % 8 = m % 8 + 1 from by omega,
        show hrow (m + 1) r = hrow m r from Fin.ext (by show (m + 1) / 16 % 8 * 512 + r.val = m / 16 % 8 * 512 + r.val; omega),
        show drow (m + 1) q = drow m q from Fin.ext (by show (m + 1) / 8 % 2 * 1024 + q.val = m / 8 % 2 * 1024 + q.val; omega)]
      exact (Finset.sum_range_succ _ _).symm

/-- At the last slab the output block receives the accumulator. -/
theorem out_eq_acc (c : Dev nD) (t : Fin cfg1.N) (h1 : t.val % 8 = 7) :
    (outsAt1 V c t.val t.isLt).1 = (outsAt1 V c t.val t.isLt).2 := by
  have h0 : ¬t.val % 8 = 0 := by omega
  rw [outsAt1_C V c t h0 h1]
  dsimp only
  exact (out_C (F := Ideal) c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2).trans
    (acc_C (F := Ideal) c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2).symm

/-- The eight partial products of a row of h against a row of d add up to the whole product. -/
theorem slabs_sum (H : S4096x8192.Idx → EReal) (D : S2048x8192.Idx → EReal) (ρ : Fin 4096) (ν : Fin 2048) :
    ∑ s ∈ Finset.range 8, slabDot H D ρ ν s = Cert.Spec.yAt H D ρ ν := by
  rw [Finset.sum_range]
  unfold slabDot Cert.Spec.yAt
  rw [← Cert.Spec.sum_slabs (fun j => H (ix2 ρ j) * D (ix2 ν j))]
  refine Finset.sum_congr rfl fun s _ => Finset.sum_congr rfl fun k _ => ?_
  have e : scol s.val k = Cert.Spec.col s k := Fin.ext (by show s.val % 8 * 1024 + k.val = s.val * 1024 + k.val; have := s.isLt; omega)
  rw [e]

end Accumulation

/-! ## The output array -/

section Result
variable (V : (c : Dev nD) → (b : Ref sig .tc) → Buf (Elt Ideal) ((c : Thread nD τ).loc b))

/-- After a point of the last slab the accumulator holds, at (r, q), y at the row of h and the row of d the point's
    blocks start at plus r and q: all eight slabs have been added. -/
theorem acc_last (c : Dev nD) (t : Fin cfg1.N) (h7 : t.val % 8 = 7) (r : Fin 512) (q : Fin 1024) :
    (outsAt1 V c t.val t.isLt).2 (ix2 r q) = Cert.Spec.yArr (hArr V c) (dArr V c) (ix2 (hrow t.val r) (drow t.val q)) := by
  rw [acc_eq V c t.val t.isLt r q, show t.val % 8 + 1 = 8 from by omega]
  exact slabs_sum (hArr V c) (dArr V c) (hrow t.val r) (drow t.val q)

/-- What a point of the last slab writes back is its block of y. -/
theorem flushed_eq (c : Dev nD) (t : Fin cfg1.N) (hf : (cfg1.win 2).flush t = true) :
    (dat1 (F := Ideal) V c).flushed 2 t
      = ((cfg1.win 2).blk t).view.read (Elt Ideal) (Cert.Spec.yArr (V c main_v1) (V c main_arg3)) := by
  have h7 : t.val % 8 = 7 := (flush1_2 t).mp hf
  have hN : t.val < 128 := lt_of_lt_of_eq t.isLt N_1
  obtain ⟨-, -, -, -, e4, e5⟩ := idx1_facts t
  show (cfg1.win 2).cut (grid1.coords t) ((dat1 V c).after 2 t) = _
  rw [after1_2, out_eq_acc V c t h7]
  funext j
  refine (congrArg (outsAt1 V c t.val t.isLt).2 (eq_ix2 (n0 := 512) (n1 := 1024) j)).trans ?_
  refine (acc_last V c t h7 (j 0) (j 1)).trans ?_
  show Cert.Spec.yArr (hArr V c) (dArr V c) (ix2 (hrow t.val (j 0)) (drow t.val (j 1)))
    = Cert.Spec.yArr (V c main_v1) (V c main_arg3) (((cfg1.win 2).blk t).view.emb j)
  refine congrArg _ (funext fun a => Fin.ext ?_)
  match a with
  | ⟨0, _⟩ =>
    show t.val / 16 % 8 * 512 + (j 0).val = win1_2.index t (0 : Fin 2) * 512 + 1 * (j 0).val
    rw [e4]; omega
  | ⟨1, _⟩ =>
    show t.val / 8 % 2 * 1024 + (j 1).val = win1_2.index t (1 : Fin 2) * 1024 + 1 * (j 1).val
    rw [e5]; omega

end Result

/-- After the second kernel's run its output array is y of the arrays it was entered with. -/
theorem arr1_eq (V : (c : Dev nD) → (b : Ref sig .tc) → Buf (Elt Ideal) ((c : Thread nD τ).loc b)) (c : Dev nD) :
    (dat1 (F := Ideal) V c).arrAt 2 cfg1.N = Cert.Spec.yArr (V c main_v1) (V c main_arg3) :=
  arr1_of_flushed (dat1 (F := Ideal) V c) (Cert.Spec.yArr (V c main_v1) (V c main_arg3)) (fun t hf => flushed_eq V c t hf)

end Cert.KernelIdeal.Hand

end
-- ==== Proof.RefValue.lean ====
/-
  The reference's result, read off its run: jnp computes h_gate = x · gᵀ and h_up = x · uᵀ by contracting the last axis,
  silu(h_gate) as h_gate · (1 / (1 + exp(−h_gate))), multiplies by h_up, and contracts with d over all 8192 columns.
  At the exact values 1 / (1 + exp(−a)) IS logistic(a), the literal 1.0 is the real one, and the batch and position
  axes together are the 4096 rows: the same function of the four argument arrays as the kernel's.
-/
import proofs.«158109_j78786880078282_1_alg».proof.Proof.Gen.ReferenceIdeal.Read
import proofs.«158109_j78786880078282_1_alg».proof.Proof.Spec
import Idealize.ShloMosaic.Lib.IdealHost
import Idealize.ShloMosaic.Lib.ValueIdx
import Idealize.ShloMosaic.PureOps.Ideal.Laws

set_option maxRecDepth 16384

noncomputable section

namespace Cert.ReferenceIdeal.RefValue

open Cert.ReferenceIdeal Cert.ReferenceIdeal.Gen
open Idealize.ShloMosaic Idealize.ShloMosaic.ValueIdx

/-- Row `b · 2048 + s` of the 4096: batch `b`, position `s`. -/
abbrev row (b : Fin 2) (s : Fin 2048) : Fin 4096 := ⟨b.val * 2048 + s.val, by omega⟩

/-- A contraction of x with a weight matrix over the last axis, at batch `b`, position `s`, column `j`: the sum over
    `k` of row `b · 2048 + s` of x times row `j` of the weights. The row's batch is `(b · 2048 + s) / 2048 = b` and its
    position `(b · 2048 + s) % 2048 = s`. -/
theorem dot_rows (x3 : FVec Ideal S2x2048x2048 .f32) (w : FVec Ideal S8192x2048 .f32) (b : Fin 2) (s : Fin 2048) (j : Fin 8192) :
    Read.val_main_v0 (F := Ideal) x3 w (ix3 b s j) = ∑ k : Fin 2048, Cert.Spec.rows x3 (ix2 (row b s) k) * w (ix2 j k) := by
  rw [Read.val_main_v0_apply]
  refine Finset.sum_congr rfl fun k _ => ?_
  have hs : s.val < 2048 := s.isLt
  have el : Read.lidx_main_v0 (ix3 b s j) k
      = ix3 (⟨(b.val * 2048 + s.val) / 2048, by omega⟩ : Fin 2) (⟨(b.val * 2048 + s.val) % 2048, by omega⟩ : Fin 2048) k :=
    funext fun a => Fin.ext (by
      match a with
      | ⟨0, _⟩ => show b.val = (b.val * 2048 + s.val) / 2048; omega
      | ⟨1, _⟩ => show s.val = (b.val * 2048 + s.val) % 2048; omega
      | ⟨2, _⟩ => rfl)
  have er : Read.ridx_main_v0 (ix3 b s j) k = ix2 j k :=
    funext fun a => Fin.ext (by match a with | ⟨0, _⟩ => rfl | ⟨1, _⟩ => rfl)
  rw [el, er]
  rfl

/-- h at batch `b`, position `s`, column `j`: the gate contraction `a` times `1 / (1 + exp (−a))`, which is
    `logistic a` by definition once the literal 1.0 is read as the real one, times the up contraction. -/
theorem h_eq (x3 : FVec Ideal S2x2048x2048 .f32) (g u : FVec Ideal S8192x2048 .f32) (b : Fin 2) (s : Fin 2048) (j : Fin 8192) :
    Read.val_main_v3 (F := Ideal) x3 g u (ix3 b s j) = Cert.Spec.hAt (Cert.Spec.rows x3) g u (row b s) j := by
  have e1 : Read.val_main_v1 (F := Ideal) x3 u = Read.val_main_v0 (F := Ideal) x3 u := rfl
  rw [Read.val_main_v3_apply, Read.val_main_v2_apply, Read.val_main_call0_v5_apply, Read.val_main_call0_v4_apply,
    Read.val_main_call0_cst_0_apply, Read.val_main_call0_v3_apply, Read.val_main_call0_v2_apply,
    Read.val_main_call0_cst_apply, Read.val_main_call0_v1_apply, Read.val_main_call0_v0_apply, e1, dot_rows, dot_rows]
  simp only [Ideal.mulf_def, Ideal.hostDivf_def, Ideal.addf_def, Ideal.hostUnary_exp_def, Ideal.hostNegf_def,
    Ideal.negf_def, Ideal.ofBits_def, Ideal.ofBits_one_f32]
  rfl

/-- The reference run's result term (the post of the generated `Cert.ReferenceIdeal.Value.run`), at the exact values, is
    `Cert.Spec.result` of the four argument arrays. -/
theorem ref_eq (x3 : FVec Ideal S2x2048x2048 .f32) (g u : FVec Ideal S8192x2048 .f32) (d : FVec Ideal S2048x8192 .f32) :
    Host.dotGeneral dot_S2x2048x8192_S2048x8192_S2x2048x2048_2_1_01_0_n_n none
      (mulf (mulf (Host.dotGeneral dot_S2x2048x2048_S8192x2048_S2x2048x8192_2_1_01_0_n_n none x3 g)
          (Host.divf (broadcastInDim S2x2048x8192 ![] bcast_S_S2x2048x8192 (constant S_ .f32 0x3F800000#32))
            (addf (broadcastInDim S2x2048x8192 ![] bcast_S_S2x2048x8192 (constant S_ .f32 0x3F800000#32))
              (Host.exp (Host.negf (Host.dotGeneral dot_S2x2048x2048_S8192x2048_S2x2048x8192_2_1_01_0_n_n none x3 g))))))
        (Host.dotGeneral dot_S2x2048x2048_S8192x2048_S2x2048x8192_2_1_01_0_n_n none x3 u)) d
      = Cert.Spec.result x3 g u d := by
  rw [Read.val_main_v4_eq]
  funext i
  obtain ⟨b, s, n, rfl⟩ : ∃ (b : Fin 2) (s : Fin 2048) (n : Fin 2048), i = ix3 b s n := ⟨i 0, i 1, i 2, eq_ix3 i⟩
  rw [Read.val_main_v4_apply]
  show _ = ∑ j : Fin 8192, Cert.Spec.hArr (Cert.Spec.rows x3) g u (ix2 (row b s) j) * d (ix2 n j)
  refine Finset.sum_congr rfl fun j _ => ?_
  have el : Read.lidx_main_v4 (ix3 b s n) j = ix3 b s j :=
    funext fun a => Fin.ext (by match a with | ⟨0, _⟩ => rfl | ⟨1, _⟩ => rfl | ⟨2, _⟩ => rfl)
  have er : Read.ridx_main_v4 (ix3 b s n) j = ix2 n j :=
    funext fun a => Fin.ext (by match a with | ⟨0, _⟩ => rfl | ⟨1, _⟩ => rfl)
  rw [el, er, h_eq]
  rfl

end Cert.ReferenceIdeal.RefValue

end
-- ==== Proof.lean ====
/-
  A SwiGLU feed-forward, as a two-kernel program against jnp. With x read as 4096 rows, both programs compute, over the
  extended reals,
      h[r, j] = silu(∑ₖ x[r, k] · g[j, k]) · (∑ₖ x[r, k] · u[j, k]),      y[r, n] = ∑ⱼ h[r, j] · d[n, j],
  and return y as 2 × 2048 rows (`Cert.Spec.result`). The kernel program gets there in two launches — h in 512 × 256
  blocks; y in 512 × 1024 blocks, the sum over j accumulated slab by slab in a scratch buffer — and the reference by
  three contractions and an expanded silu, a · (1 / (1 + e⁻ᵃ)), which at the exact values is a · logistic(a). The two
  agree because a finite sum may be regrouped: addition on the extended reals is commutative and associative; no
  cancellation or distribution is used, so the finiteness of the inputs is never opened.
  The frames: each kernel program runs its four items (reshape, kernel, kernel, reshape) to the end and no item writes
  an argument; the reference's frame is its run with the result dropped. Nothing was rewritten by the idealization, so
  `preserves` has no conjunct.
-/
import proofs.«158109_j78786880078282_1_alg».proof.Defs
import proofs.«158109_j78786880078282_1_alg».proof.Proof.Gen.Kernel
import proofs.«158109_j78786880078282_1_alg».proof.Proof.Gen.KernelIdeal
import proofs.«158109_j78786880078282_1_alg».proof.Proof.Gen.ReferenceIdeal
import proofs.«158109_j78786880078282_1_alg».proof.Proof.Gen.Pre_finite_inputs
import proofs.«158109_j78786880078282_1_alg».proof.Proof.Gen.ReferenceIdeal.Run
import proofs.«158109_j78786880078282_1_alg».proof.Proof.FrameBits.Run
import proofs.«158109_j78786880078282_1_alg».proof.Proof.Join
import proofs.«158109_j78786880078282_1_alg».proof.Proof.Value0
import proofs.«158109_j78786880078282_1_alg».proof.Proof.Value1
import proofs.«158109_j78786880078282_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel program runs to the end and leaves its arguments as launched. -/
theorem frame_k : Cert.frame_Kernel := fun m ρ _ => Cert.Kernel.Hand.frame m ρ

/-- So does the idealized kernel program. -/
theorem frame_ki : Cert.frame_KernelIdeal := fun m ρ _ => Cert.KernelIdeal.Hand.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- At the exact values both programs end with `Cert.Spec.result` of the (agreeing) arguments. -/
theorem algebraic : Cert.algebraic_KernelIdeal_ReferenceIdeal := by
  intro m ρ m' ρ' _ hagree
  refine ⟨fun c => Cert.Spec.result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)),
    Cert.KernelIdeal.Hand.value_run m ρ Cert.KernelIdeal.Hand.arr0_eq Cert.KernelIdeal.Hand.arr1_eq, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2]
  exact Cert.ReferenceIdeal.RefValue.ref_eq _ _ _ _

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
